-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.truncf_extf.Statement Cert.KernelIdeal.S128x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128 : Shape := ⟨3, ![32, 128, 128]⟩
abbrev S32x128x64 : Shape := ⟨3, ![32, 128, 64]⟩
abbrev S32x128x64x64 : Shape := ⟨4, ![32, 128, 64, 64]⟩
abbrev S128x128 : Shape := ⟨2, ![128, 128]⟩
abbrev S64x128 : Shape := ⟨2, ![64, 128]⟩
abbrev S128 : Shape := ⟨1, ![128]⟩
abbrev S_ : Shape := ⟨0, ![]⟩

class Facts : Prop where
  bcast_S_S32x128x128 : S_.BroadcastsInDim S32x128x128 (![] : Fin 0 → Fin S32x128x128.rank)
  reducesTo_S32x128x128_S_d0_1_2 : S32x128x128.ReducesTo [0, 1, 2] S_
  h_S_ : 0 < S_.numel
  bcast_S_S32x128x64 : S_.BroadcastsInDim S32x128x64 (![] : Fin 0 → Fin S32x128x64.rank)
  reducesTo_S32x128x64_S_d0_1_2 : S32x128x64.ReducesTo [0, 1, 2] S_
  bcast_S_S32x128x64x64 : S_.BroadcastsInDim S32x128x64x64 (![] : Fin 0 → Fin S32x128x64x64.rank)
  reducesTo_S32x128x64x64_S_d0_1_2_3 : S32x128x64x64.ReducesTo [0, 1, 2, 3] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg2 : IVec S32x128x64 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S32x128x64 32 := broadcastInDim S32x128x64 ![] bcast_S_S32x128x64 main_c_20
  let main_v55 : IVec S32x128x64 1 := cmpi .sge main_arg2 main_v54
  let main_c_21 : IVec S_ 1 := constantI S_ 1 1#1
  let main_v56 : IVec S_ 1 := (fun x v => Host.reduce IntOp.andi x v reducesTo_S32x128x64_S_d0_1_2 h_S_) main_v55 main_c_21
  let main_v57 : IVec S_ 1 := andi main_v53 main_v56
  let main_c_22 : IVec S_ 32 := constantI S_ 32 128#32
  let main_v58 : IVec S32x128x64 32 := broadcastInDim S32x128x64 ![] bcast_S_S32x128x64 main_c_22
  let main_v59 : IVec S32x128x64 1 := cmpi .slt main_arg2 main_v58
  let main_c_23 : IVec S_ 1 := constantI S_ 1 1#1
  let main_v60 : IVec S_ 1 := (fun x v => Host.reduce IntOp.andi x v reducesTo_S32x128x64_S_d0_1_2 h_S_) main_v59 main_c_23
  let main_v61 : IVec S_ 1 := andi main_v57 main_v60
  main_v61

def fn_part2 {F : FTy → Type} [FloatOps F] (main_arg2 : IVec S32x128x64 32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_v48 main_v49 main_v50

def fn_part1 {F : FTy → Type} [FloatOps F] (main_arg2 : IVec S32x128x64 32) (main_arg5 : FVec F S128x128 .f32) (main_arg6 : FVec F S64x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S32x128x64x64 1) : IVec S_ 1 :=
  let main_c_5 : IVec S_ 1 := constantI S_ 1 1#1
  let main_v17 : IVec S_ 1 := (fun x v => Host.reduce IntOp.andi x v reducesTo_S32x128x64x64_S_d0_1_2_3 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_v33

def fn {F : FTy → Type} [FloatOps F] (main_arg0 : FVec F S32x128x128 .f32) (main_arg1 : FVec F S32x128x64 .f32) (main_arg2 : IVec S32x128x64 32) (main_arg3 : FVec F S32x128x64 .f32) (main_arg4 : FVec F S32x128x64x64 .f32) (main_arg5 : FVec F S128x128 .f32) (main_arg6 : FVec F S64x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S32x128x128 .f32 := Host.absf main_arg0
  let main_cst : FVec F S_ .f32 := constant S_ .f32 0x7F800000#32
  let main_v1 : FVec F S32x128x128 .f32 := broadcastInDim S32x128x128 ![] bcast_S_S32x128x128 main_cst
  let main_v2 : IVec S32x128x128 1 := cmpf .olt main_v0 main_v1
  let main_c : IVec S_ 1 := constantI S_ 1 1#1
  let main_v3 : IVec S_ 1 := (fun x v => Host.reduce IntOp.andi x v reducesTo_S32x128x128_S_d0_1_2 h_S_) main_v2 main_c
  let main_v4 : FVec F S32x128x64 .f32 := Host.absf main_arg1
  let main_cst_0 : FVec F S_ .f32 := constant S_ .f32 0x7F800000#32
  let main_v5 : FVec F S32x128x64 .f32 := broadcastInDim S32x128x64 ![] bcast_S_S32x128x64 main_cst_0
  let main_v6 : IVec S32x128x64 1 := cmpf .olt main_v4 main_v5
  let main_c_1 : IVec S_ 1 := constantI S_ 1 1#1
  let main_v7 : IVec S_ 1 := (fun x v => Host.reduce IntOp.andi x v reducesTo_S32x128x64_S_d0_1_2 h_S_) main_v6 main_c_1
  let main_v8 : IVec S_ 1 := andi main_v3 main_v7
  let main_v9 : FVec F S32x128x64 .f32 := Host.absf main_arg3
  let main_cst_2 : FVec F S_ .f32 := constant S_ .f32 0x7F800000#32
  let main_v10 : FVec F S32x128x64 .f32 := broadcastInDim S32x128x64 ![] bcast_S_S32x128x64 main_cst_2
  let main_v11 : IVec S32x128x64 1 := cmpf .olt main_v9 main_v10
  let main_c_3 : IVec S_ 1 := constantI S_ 1 1#1
  let main_v12 : IVec S_ 1 := (fun x v => Host.reduce IntOp.andi x v reducesTo_S32x128x64_S_d0_1_2 h_S_) main_v11 main_c_3
  let main_v13 : IVec S_ 1 := andi main_v8 main_v12
  let main_v14 : FVec F S32x128x64x64 .f32 := Host.absf main_arg4
  let main_cst_4 : FVec F S_ .f32 := constant S_ .f32 0x7F800000#32
  let main_v15 : FVec F S32x128x64x64 .f32 := broadcastInDim S32x128x64x64 ![] bcast_S_S32x128x64x64 main_cst_4
  let main_v16 : IVec S32x128x64x64 1 := cmpf .olt main_v14 main_v15
  fn_part1 (F := F) main_arg2 main_arg5 main_arg6 main_arg7 main_arg8 main_arg9 main_arg10 main_arg11 main_v13 main_v16
-- ==== Kernel.lean ====
abbrev S32x128x128 : Shape := ⟨3, ![32, 128, 128]⟩
abbrev S32x128x64 : Shape := ⟨3, ![32, 128, 64]⟩
abbrev S32x128x64x64 : Shape := ⟨4, ![32, 128, 64, 64]⟩
abbrev S128x128 : Shape := ⟨2, ![128, 128]⟩
abbrev S64x128 : Shape := ⟨2, ![64, 128]⟩
abbrev S128 : Shape := ⟨1, ![128]⟩
abbrev S_ : Shape := ⟨0, ![]⟩
abbrev S32x8192x64 : Shape := ⟨3, ![32, 8192, 64]⟩
abbrev S1x128x128 : Shape := ⟨3, ![1, 128, 128]⟩
abbrev S1x128x64 : Shape := ⟨3, ![1, 128, 64]⟩
abbrev S1x8192x64 : Shape := ⟨3, ![1, 8192, 64]⟩
abbrev S8192x64 : Shape := ⟨2, ![8192, 64]⟩
abbrev S8192x128 : Shape := ⟨2, ![8192, 128]⟩
abbrev S1x128 : Shape := ⟨2, ![1, 128]⟩
abbrev S128x64 : Shape := ⟨2, ![128, 64]⟩
abbrev S8192x1 : Shape := ⟨2, ![8192, 1]⟩
abbrev S128x64x128 : Shape := ⟨3, ![128, 64, 128]⟩

abbrev nBuf : Space → Nat
  | .hbm => 22
  | .vmem => 19
  | .smem => 0
  | _ => 0

abbrev bufTy : (tb : Table) → Fin (tcTables nBuf tb) → BufTy
  | .hbm, ⟨0, _⟩ => ⟨S32x128x128, .f32⟩
  | .hbm, ⟨1, _⟩ => ⟨S32x128x64, .f32⟩
  | .hbm, ⟨2, _⟩ => ⟨S32x128x64, .i32⟩
  | .hbm, ⟨3, _⟩ => ⟨S32x128x64, .f32⟩
  | .hbm, ⟨4, _⟩ => ⟨S32x128x64x64, .f32⟩
  | .hbm, ⟨5, _⟩ => ⟨S128x128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S32x128x64, .i32⟩
  | .hbm, ⟨16, _⟩ => ⟨S32x128x64, .i32⟩
  | .hbm, ⟨17, _⟩ => ⟨S_, .i32⟩
  | .hbm, ⟨18, _⟩ => ⟨S32x128x64, .i32⟩
  | .hbm, ⟨19, _⟩ => ⟨S32x128x64, .i32⟩
  | .hbm, ⟨20, _⟩ => ⟨S32x8192x64, .f32⟩
  | .hbm, ⟨21, _⟩ => ⟨S32x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .i32⟩
  | .local _ .vmem, ⟨5, _⟩ => ⟨S1x128x64, .i32⟩
  | .local _ .vmem, ⟨6, _⟩ => ⟨S1x128x64, .f32⟩
  | .local _ .vmem, ⟨7, _⟩ => ⟨S1x128x64, .f32⟩
  | .local _ .vmem, ⟨8, _⟩ => ⟨S1x8192x64, .f32⟩
  | .local _ .vmem, ⟨9, _⟩ => ⟨S1x8192x64, .f32⟩
  | .local _ .vmem, ⟨10, _⟩ => ⟨S128x128, .f32⟩
  | .local _ .vmem, ⟨11, _⟩ => ⟨S64x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S1x128x128, .f32⟩
  | .local _ .vmem, ⟨18, _⟩ => ⟨S1x128x128, .f32⟩
  | _, _ => ⟨S32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S32x128x64 : S_.BroadcastsInDim S32x128x64 (![] : Fin 0 → Fin S32x128x64.rank)
  shapeCasts_S32x128x64x64_S32x8192x64 : S32x128x64x64.ShapeCasts S32x8192x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  natLt_1_32 : 1 < 32
  shapeCasts_S128x64_S8192x1 : S128x64.ShapeCasts S8192x1
  broadcasts_S8192x1_S8192x128 : S8192x1.Broadcasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  iota_S8192x128_d1_w32 : S8192x128.Iotas .tc 32 [1]
  shapeCasts_S8192x128_S128x64x128 : S8192x128.ShapeCasts S128x64x128
  reduces_S128x64x128_S128x128 : S128x64x128.Reduces [1] S128x128
  broadcasts_S1x128_S128x128 : S1x128.Broadcasts S128x128
  shapeCasts_S128x128_S1x128x128 : S128x128.ShapeCasts S1x128x128
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S32x128x128.size a
  hwx0_0 : ∀ i : grid0.Coords, EltTy.bits .f32 = 32 ∨ (Rect.block (s := S32x128x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S32x128x64.size a
  hwx0_1 : ∀ i : grid0.Coords, EltTy.bits .f32 = 32 ∨ (Rect.block (s := S32x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S32x128x64.size a
  hwx0_2 : ∀ i : grid0.Coords, EltTy.bits .i32 = 32 ∨ (Rect.block (s := S32x128x64) S1x128x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S32x128x64.size a
  hwx0_3 : ∀ i : grid0.Coords, EltTy.bits .f32 = 32 ∨ (Rect.block (s := S32x128x64) S1x128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x64.size a ≤ S32x8192x64.size a
  hwx0_4 : ∀ i : grid0.Coords, EltTy.bits .f32 = 32 ∨ (Rect.block (s := S32x8192x64) S1x8192x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128x128.size a ≤ S32x128x128.size a
  hwx0_12 : ∀ i : grid0.Coords, EltTy.bits .f32 = 32 ∨ (Rect.block (s := S32x128x128) S1x128x128.size (cc0_transform_12 i) (hinb0_12 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8192x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2) S1x128x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32x128x128 : Shape := ⟨3, ![32, 128, 128]⟩
abbrev S32x128x64 : Shape := ⟨3, ![32, 128, 64]⟩
abbrev S32x128x64x64 : Shape := ⟨4, ![32, 128, 64, 64]⟩
abbrev S128x128 : Shape := ⟨2, ![128, 128]⟩
abbrev S64x128 : Shape := ⟨2, ![64, 128]⟩
abbrev S128 : Shape := ⟨1, ![128]⟩
abbrev S32x128x64x128 : Shape := ⟨4, ![32, 128, 64, 128]⟩
abbrev S1x1x1x128 : Shape := ⟨4, ![1, 1, 1, 128]⟩
abbrev S_ : Shape := ⟨0, ![]⟩
abbrev S32x128x64x1 : Shape := ⟨4, ![32, 128, 64, 1]⟩
abbrev S32x8192x1 : Shape := ⟨3, ![32, 8192, 1]⟩
abbrev S1 : Shape := ⟨1, ![1]⟩
abbrev S1x1x1 : Shape := ⟨3, ![1, 1, 1]⟩
abbrev S32x8192 : Shape := ⟨2, ![32, 8192]⟩
abbrev S32x8192x128 : Shape := ⟨3, ![32, 8192, 128]⟩
abbrev S1x1x128 : Shape := ⟨3, ![1, 1, 128]⟩

abbrev nBuf : Space → Nat
  | .hbm => 107
  | .vmem => 0
  | .smem => 0
  | _ => 0

abbrev bufTy : (tb : Table) → Fin (tcTables nBuf tb) → BufTy
  | .hbm, ⟨0, _⟩ => ⟨S32x128x128, .f32⟩
  | .hbm, ⟨1, _⟩ => ⟨S32x128x64, .f32⟩
  | .hbm, ⟨2, _⟩ => ⟨S32x128x64, .i32⟩
  | .hbm, ⟨3, _⟩ => ⟨S32x128x64, .f32⟩
  | .hbm, ⟨4, _⟩ => ⟨S32x128x64x64, .f32⟩
  | .hbm, ⟨5, _⟩ => ⟨S128x128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S32x128x64x128, .f32⟩
  | .hbm, ⟨13, _⟩ => ⟨S1x1x1x128, .f32⟩
  | .hbm, ⟨14, _⟩ => ⟨S32x128x64x128, .f32⟩
  | .hbm, ⟨15, _⟩ => ⟨S32x128x64x128, .f32⟩
  | .hbm, ⟨16, _⟩ => ⟨S_, .f32⟩
  | .hbm, ⟨17, _⟩ => ⟨S32x128x64x128, .f32⟩
  | .hbm, ⟨18, _⟩ => ⟨S32x128x64x128, .f32⟩
  | .hbm, ⟨19, _⟩ => ⟨S32x128x64x128, .f32⟩
  | .hbm, ⟨20, _⟩ => ⟨S32x128x64x128, .f32⟩
  | .hbm, ⟨21, _⟩ => ⟨S32x128x64x128, .i1⟩
  | .hbm, ⟨22, _⟩ => ⟨S32x128x64x128, .f32⟩
  | .hbm, ⟨23, _⟩ => ⟨S32x128x64x128, .f32⟩
  | .hbm, ⟨24, _⟩ => ⟨S32x128x64x128, .f32⟩
  | .hbm, ⟨25, _⟩ => ⟨S32x128x64x128, .f32⟩
  | .hbm, ⟨26, _⟩ => ⟨S32x128x64x128, .f32⟩
  | .hbm, ⟨27, _⟩ => ⟨S32x128x64x128, .f32⟩
  | .hbm, ⟨28, _⟩ => ⟨S32x128x64x128, .f32⟩
  | .hbm, ⟨29, _⟩ => ⟨S32x128x64x128, .f32⟩
  | .hbm, ⟨30, _⟩ => ⟨S_, .f32⟩
  | .hbm, ⟨31, _⟩ => ⟨S32x128x64x128, .f32⟩
  | .hbm, ⟨32, _⟩ => ⟨S32x128x64x128, .f32⟩
  | .hbm, ⟨33, _⟩ => ⟨S32x128x64x128, .f32⟩
  | .hbm, ⟨34, _⟩ => ⟨S1x1x1x128, .f32⟩
  | .hbm, ⟨35, _⟩ => ⟨S32x128x64x128, .f32⟩
  | .hbm, ⟨36, _⟩ => ⟨S32x128x64x128, .f32⟩
  | .hbm, ⟨37, _⟩ => ⟨S_, .f32⟩
  | .hbm, ⟨38, _⟩ => ⟨S32x128x64, .f32⟩
  | .hbm, ⟨39, _⟩ => ⟨S32x128x64, .f32⟩
  | .hbm, ⟨40, _⟩ => ⟨S32x128x64, .f32⟩
  | .hbm, ⟨41, _⟩ => ⟨S_, .f32⟩
  | .hbm, ⟨42, _⟩ => ⟨S32x128x64, .f32⟩
  | .hbm, ⟨43, _⟩ => ⟨S32x128x64, .f32⟩
  | .hbm, ⟨44, _⟩ => ⟨S_, .f32⟩
  | .hbm, ⟨45, _⟩ => ⟨S32x128x64, .f32⟩
  | .hbm, ⟨46, _⟩ => ⟨S32x128x64, .f32⟩
  | .hbm, ⟨47, _⟩ => ⟨S_, .f32⟩
  | .hbm, ⟨48, _⟩ => ⟨S32x128x64, .f32⟩
  | .hbm, ⟨49, _⟩ => ⟨S32x128x64, .i1⟩
  | .hbm, ⟨50, _⟩ => ⟨S32x128x64, .f32⟩
  | .hbm, ⟨51, _⟩ => ⟨S32x128x64, .f32⟩
  | .hbm, ⟨52, _⟩ => ⟨S32x128x64x1, .f32⟩
  | .hbm, ⟨53, _⟩ => ⟨S32x128x64x128, .f32⟩
  | .hbm, ⟨54, _⟩ => ⟨S32x128x64x128, .f32⟩
  | .hbm, ⟨55, _⟩ => ⟨S32x128x128, .f32⟩
  | .hbm, ⟨56, _⟩ => ⟨S32x8192x1, .i32⟩
  | .hbm, ⟨57, _⟩ => ⟨S_, .i32⟩
  | .hbm, ⟨58, _⟩ => ⟨S32x8192x1, .i32⟩
  | .hbm, ⟨59, _⟩ => ⟨S32x8192x1, .i1⟩
  | .hbm, ⟨60, _⟩ => ⟨S_, .i32⟩
  | .hbm, ⟨61, _⟩ => ⟨S32x8192x1, .i32⟩
  | .hbm, ⟨62, _⟩ => ⟨S32x8192x1, .i32⟩
  | .hbm, ⟨63, _⟩ => ⟨S32x8192x1, .i32⟩
  | .hbm, ⟨64, _⟩ => ⟨S1, .i32⟩
  | .hbm, ⟨65, _⟩ => ⟨S_, .i32⟩
  | .hbm, ⟨66, _⟩ => ⟨S32x8192x1, .i32⟩
  | .hbm, ⟨67, _⟩ => ⟨S32x8192x1, .i1⟩
  | .hbm, ⟨68, _⟩ => ⟨S1x1x1, .i32⟩
  | .hbm, ⟨69, _⟩ => ⟨S32x8192x1, .i32⟩
  | .hbm, ⟨70, _⟩ => ⟨S32x8192x1, .i1⟩
  | .hbm, ⟨71, _⟩ => ⟨S32x8192x1, .i1⟩
  | .hbm, ⟨72, _⟩ => ⟨S_, .i1⟩
  | .hbm, ⟨73, _⟩ => ⟨S32x8192, .i1⟩
  | .hbm, ⟨74, _⟩ => ⟨S32x8192x128, .f32⟩
  | .hbm, ⟨75, _⟩ => ⟨S32x8192x128, .i1⟩
  | .hbm, ⟨76, _⟩ => ⟨S_, .f32⟩
  | .hbm, ⟨77, _⟩ => ⟨S32x8192x128, .f32⟩
  | .hbm, ⟨78, _⟩ => ⟨S32x8192x128, .f32⟩
  | .hbm, ⟨79, _⟩ => ⟨S32x128x64x128, .f32⟩
  | .hbm, ⟨80, _⟩ => ⟨S32x128x64x128, .f32⟩
  | .hbm, ⟨81, _⟩ => ⟨S32x128x64x1, .f32⟩
  | .hbm, ⟨82, _⟩ => ⟨S32x128x64x128, .f32⟩
  | .hbm, ⟨83, _⟩ => ⟨S32x128x64x128, .f32⟩
  | .hbm, ⟨84, _⟩ => ⟨S_, .f32⟩
  | .hbm, ⟨85, _⟩ => ⟨S32x128x128, .f32⟩
  | .hbm, ⟨86, _⟩ => ⟨S32x128x128, .f32⟩
  | .hbm, ⟨87, _⟩ => ⟨S1x1x128, .f32⟩
  | .hbm, ⟨88, _⟩ => ⟨S32x128x128, .f32⟩
  | .hbm, ⟨89, _⟩ => ⟨S32x128x128, .f32⟩
  | .hbm, ⟨90, _⟩ => ⟨S_, .f32⟩
  | .hbm, ⟨91, _⟩ => ⟨S32x128x128, .f32⟩
  | .hbm, ⟨92, _⟩ => ⟨S32x128x128, .f32⟩
  | .hbm, ⟨93, _⟩ => ⟨S32x128x128, .f32⟩
  | .hbm, ⟨94, _⟩ => ⟨S32x128x128, .f32⟩
  | .hbm, ⟨95, _⟩ => ⟨S32x128x128, .i1⟩
  | .hbm, ⟨96, _⟩ => ⟨S32x128x128, .f32⟩
  | .hbm, ⟨97, _⟩ => ⟨S32x128x128, .f32⟩
  | .hbm, ⟨98, _⟩ => ⟨S32x128x128, .f32⟩
  | .hbm, ⟨99, _⟩ => ⟨S32x128x128, .f32⟩
  | .hbm, ⟨100, _⟩ => ⟨S32x128x128, .f32⟩
  | .hbm, ⟨101, _⟩ => ⟨S32x128x128, .f32⟩
  | .hbm, ⟨102, _⟩ => ⟨S32x128x128, .f32⟩
  | .hbm, ⟨103, _⟩ => ⟨S32x128x128, .f32⟩
  | .hbm, ⟨104, _⟩ => ⟨S_, .f32⟩
  | .hbm, ⟨105, _⟩ => ⟨S32x128x128, .f32⟩
  | .hbm, ⟨106, _⟩ => ⟨S32x128x128, .f32⟩
  | _, _ => ⟨S32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_1 : Ref sig .tc := ⟨.hbm, 64, rfl⟩
abbrev main_call1_c_2 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_c_3 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_4 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_v38 : Ref sig .tc := ⟨.hbm, 103, rfl⟩
abbrev main_cst_5 : Ref sig .tc := ⟨.hbm, 104, rfl⟩
abbrev main_v39 : Ref sig .tc := ⟨.hbm, 105, rfl⟩
abbrev main_v40 : Ref sig .tc := ⟨.hbm, 106, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S32x128x64x128_0_1_2_3 : S1x1x1x128.BroadcastsInDim S32x128x64x128 (![0, 1, 2, 3] : Fin 4 → Fin S32x128x64x128.rank)
  bcast_S_S32x128x64x128 : S_.BroadcastsInDim S32x128x64x128 (![] : Fin 0 → Fin S32x128x64x128.rank)
  bcast_S_S32x128x64 : S_.BroadcastsInDim S32x128x64 (![] : Fin 0 → Fin S32x128x64.rank)
  bcast_S32x128x64_S32x128x64x1_0_1_2 : S32x128x64.BroadcastsInDim S32x128x64x1 (![0, 1, 2] : Fin 3 → Fin S32x128x64x1.rank)
  bcast_S32x128x64x1_S32x128x64x128_0_1_2_3 : S32x128x64x1.BroadcastsInDim S32x128x64x128 (![0, 1, 2, 3] : Fin 4 → Fin S32x128x64x128.rank)
  shapeCasts_S32x128x64_S32x8192x1 : S32x128x64.ShapeCasts S32x8192x1
  bcast_S_S32x8192x1 : S_.BroadcastsInDim S32x8192x1 (![] : Fin 0 → Fin S32x8192x1.rank)
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x8192_d2 : S32x8192x1.ReducesTo [2] S32x8192
  h_S_ : 0 < S_.numel
  bcast_S32x8192_S32x8192x128_0_1 : S32x8192.BroadcastsInDim S32x8192x128 (![0, 1] : Fin 2 → Fin S32x8192x128.rank)
  bcast_S_S32x8192x128 : S_.BroadcastsInDim S32x8192x128 (![] : Fin 0 → Fin S32x8192x128.rank)
  shapeCasts_S32x8192x128_S32x128x64x128 : S32x8192x128.ShapeCasts S32x128x64x128
  reducesTo_S32x128x64x128_S32x128x128_d2 : S32x128x64x128.ReducesTo [2] S32x128x128
  bcast_S128_S1x1x128_2 : S128.BroadcastsInDim S1x1x128 (![2] : Fin 1 → Fin S1x1x128.rank)
  bcast_S1x1x128_S32x128x128_0_1_2 : S1x1x128.BroadcastsInDim S32x128x128 (![0, 1, 2] : Fin 3 → Fin S32x128x128.rank)
  bcast_S_S32x128x128 : S_.BroadcastsInDim S32x128x128 (![] : Fin 0 → Fin S32x128x128.rank)
  dot_S32x128x64x64_S64x128_S32x128x64x128_3_0_012_1_n_n_wf : DotDims.WF S32x128x64x64 S64x128 S32x128x64x128 [3] [0] [0, 1, 2] [1] [] []
  dot_S32x128x64x128_S128x128_S32x128x64x128_3_0_012_1_n_n_wf : DotDims.WF S32x128x64x128 S128x128 S32x128x64x128 [3] [0] [0, 1, 2] [1] [] []
  dot_S32x128x128_S128x128_S32x128x128_2_0_01_1_n_n_wf : DotDims.WF S32x128x128 S128x128 S32x128x128 [2] [0] [0, 1] [1] [] []
  gather_S32x128x128_S32x8192x1_S32x8192x128_2_1_0_0_1_2_11128_wf : GatherDims.WF S32x128x128 S32x8192x1 S32x8192x128 [2] [1] [0] [1] [0] 2 ![1, 1, 128]

variable [Facts₀]

def dot_S32x128x64x64_S64x128_S32x128x64x128_3_0_012_1_n_n : DotDims S32x128x64x64 S64x128 S32x128x64x128 where
  lhsContracting := [3]
  rhsContracting := [0]
  lhsNonContracting := [0, 1, 2]
  rhsNonContracting := [1]
  lhsBatch := []
  rhsBatch := []
  wf := dot_S32x128x64x64_S64x128_S32x128x64x128_3_0_012_1_n_n_wf
def dot_S32x128x64x128_S128x128_S32x128x64x128_3_0_012_1_n_n : DotDims S32x128x64x128 S128x128 S32x128x64x128 where
  lhsContracting := [3]
  rhsContracting := [0]
  lhsNonContracting := [0, 1, 2]
  rhsNonContracting := [1]
  lhsBatch := []
  rhsBatch := []
  wf := dot_S32x128x64x128_S128x128_S32x128x64x128_3_0_012_1_n_n_wf
def dot_S32x128x128_S128x128_S32x128x128_2_0_01_1_n_n : DotDims S32x128x128 S128x128 S32x128x128 where
  lhsContracting := [2]
  rhsContracting := [0]
  lhsNonContracting := [0, 1]
  rhsNonContracting := [1]
  lhsBatch := []
  rhsBatch := []
  wf := dot_S32x128x128_S128x128_S32x128x128_2_0_01_1_n_n_wf
def gather_S32x128x128_S32x8192x1_S32x8192x128_2_1_0_0_1_2_11128 : GatherDims S32x128x128 S32x8192x1 S32x8192x128 where
  offsetDims := [2]
  collapsedSliceDims := [1]
  operandBatchingDims := [0]
  startIndicesBatchingDims := [0]
  startIndexMap := [1]
  indexVectorDim := 2
  sliceSizes := ![1, 1, 128]
  wf := gather_S32x128x128_S32x8192x1_S32x8192x128_2_1_0_0_1_2_11128_wf

class Facts : Prop extends Facts₀ where

variable [Facts]
-- ==== Proof.Spec.lean ====
/-
  The continuous-filter convolution that both programs compute, written once as scalar functions on the
  extended reals, for ONE batch entry: atoms `a, k : Fin 128`, neighbour slots `n : Fin 64`, radial
  basis functions `j : Fin 64`, feature channels `g, f, i, o : Fin 128`.

    hidden a n g = ssp (sum_j e a n j * Wf1 j g + bf1 g)                 the filter network's first layer
    filt   a n f = sum_g hidden a n g * Wf2 g f + bf2 f                  its second layer
    cutoff r     = (1/2 * (cos (r * (pi/5)) + 1)) * [r < 5]              the cosine cutoff of a distance
    proj   k f   = sum_i x k i * Win i f                                 the atom embedding projected
    msg    a n f = (proj (nb a n) f * (filt a n f * cutoff (r a n))) * mk a n
    agg    a f   = sum_n msg a n f                                       summed over the neighbour slots
    outv   a o   = ssp (sum_f agg a f * Wout f o + bout o)

  `ssp v = max v 0 + log (1 + exp (-|v - 0|)) - ln 2` is the shifted softplus as jax spells it (the
  float words are kept as words: the same word stands on both sides and is never evaluated, except the
  zero word where a law needs `0`). The neighbour index `nb a n` is a 32-bit word read signed and
  clamped into `[0, 127]` (`clampIdx`), which is what a host gather does with it.

  The small laws by which the two programs' spellings of a stage meet these functions are proved
  here as well: the two spellings of the softplus (its not-a-number guard never fires on the extended
  reals), the two spellings of the indicator of a one-bit word, the row a one-hot matrix product picks,
  and that a finite sum of products of real numbers is a real number.
-/
import Idealize.ShloMosaic.PureOps.Ideal
import Idealize.ShloMosaic.PureOps.Ideal.Laws
import Idealize.ShloMosaic.Lib.ValueIdx

noncomputable section

namespace Cert.CfConv

open Idealize.ShloMosaic Idealize.ShloMosaic.ValueIdx

/-! ## The float words of the two programs -/

abbrev zeroW : EReal := Ideal.ofBits .f32 0x00000000#32
abbrev ln2W : EReal := Ideal.ofBits .f32 0x3F317218#32
abbrev stepW : EReal := Ideal.ofBits .f32 0x3F20D97C#32
abbrev oneW : EReal := Ideal.ofBits .f32 0x3F800000#32
abbrev halfW : EReal := Ideal.ofBits .f32 0x3F000000#32
abbrev fiveW : EReal := Ideal.ofBits .f32 0x40A00000#32

/-! ## Scalar stages -/

/-- The shifted softplus, `max v 0 + log (1 + exp (-|v - 0|)) - ln 2`. -/
def ssp (v : EReal) : EReal :=
  (max v zeroW + Ideal.log1p (Ideal.exp (-(max (v - zeroW) (-(v - zeroW)))))) - ln2W

/-- The cosine cutoff of a distance `r`, zero from the cutoff radius on. -/
def cutoff (r : EReal) : EReal :=
  (halfW * (Ideal.cos (r * stepW) + oneW)) * (((Ideal.cmp .olt r fiveW).toNat : ℝ) : EReal)

/-- A neighbour index word read signed and clamped to the atoms' range. -/
def clampIdx (w : BitVec 32) : Fin 128 := ⟨min w.toInt.toNat 127, by omega⟩

/-- Atom `a`'s neighbour slot `n` as a row of the flattened `[128 * 64]` pair axis. -/
def rowOf (a : Fin 128) (n : Fin 64) : Fin 8192 := ⟨a.val * 64 + n.val, by omega⟩

section batch

variable (x : Fin 128 → Fin 128 → EReal) (r : Fin 128 → Fin 64 → EReal) (nb : Fin 128 → Fin 64 → BitVec 32)
  (mk : Fin 128 → Fin 64 → EReal) (e : Fin 128 → Fin 64 → Fin 64 → EReal)
  (Win : Fin 128 → Fin 128 → EReal) (Wf1 : Fin 64 → Fin 128 → EReal) (bf1 : Fin 128 → EReal)
  (Wf2 : Fin 128 → Fin 128 → EReal) (bf2 : Fin 128 → EReal) (Wout : Fin 128 → Fin 128 → EReal) (bout : Fin 128 → EReal)

def hidden (a : Fin 128) (n : Fin 64) (g : Fin 128) : EReal := ssp (∑ j : Fin 64, e a n j * Wf1 j g + bf1 g)

def filt (a : Fin 128) (n : Fin 64) (f : Fin 128) : EReal := ∑ g : Fin 128, hidden e Wf1 bf1 a n g * Wf2 g f + bf2 f

def proj (k f : Fin 128) : EReal := ∑ i : Fin 128, x k i * Win i f

def msg (a : Fin 128) (n : Fin 64) (f : Fin 128) : EReal :=
  (proj x Win (clampIdx (nb a n)) f * (filt e Wf1 bf1 Wf2 bf2 a n f * cutoff (r a n))) * mk a n

def agg (a f : Fin 128) : EReal := ∑ n : Fin 64, msg x r nb mk e Win Wf1 bf1 Wf2 bf2 a n f

def outv (a o : Fin 128) : EReal :=
  ssp (∑ f : Fin 128, agg x r nb mk e Win Wf1 bf1 Wf2 bf2 a f * Wout f o + bout o)

end batch

/-! ## The whole arrays -/

abbrev SX : Shape := ⟨3, ![32, 128, 128]⟩
abbrev SR : Shape := ⟨3, ![32, 128, 64]⟩
abbrev SE : Shape := ⟨4, ![32, 128, 64, 64]⟩
abbrev SW : Shape := ⟨2, ![128, 128]⟩
abbrev SW1 : Shape := ⟨2, ![64, 128]⟩
abbrev SB : Shape := ⟨1, ![128]⟩

/-- The result array as one function of the twelve argument arrays: entry `(b, a, o)` is `outv a o` of batch
    entry `b`'s slices. -/
def G (X : SX.Idx → EReal) (R : SR.Idx → EReal) (N : SR.Idx → BitVec 32) (M : SR.Idx → EReal) (E : SE.Idx → EReal)
    (Win : SW.Idx → EReal) (Wf1 : SW1.Idx → EReal) (bf1 : SB.Idx → EReal) (Wf2 : SW.Idx → EReal) (bf2 : SB.Idx → EReal)
    (Wout : SW.Idx → EReal) (bout : SB.Idx → EReal) : SX.Idx → EReal := fun j =>
  outv (fun k i => X (ix3 (j 0) k i)) (fun a n => R (ix3 (j 0) a n)) (fun a n => N (ix3 (j 0) a n)) (fun a n => M (ix3 (j 0) a n))
    (fun a n q => E (ix4 (j 0) a n q)) (fun i f => Win (ix2 i f)) (fun q g => Wf1 (ix2 q g)) (fun g => bf1 (ix1 g))
    (fun g f => Wf2 (ix2 g f)) (fun f => bf2 (ix1 f)) (fun f o => Wout (ix2 f o)) (fun o => bout (ix1 o)) (j 1) (j 2)

/-- Every neighbour index lies in the atoms' range, read signed. -/
def InRange (N : SR.Idx → BitVec 32) : Prop := ∀ i, 0 ≤ (N i).toInt ∧ (N i).toInt < 128

/-- Every entry is a real number. -/
def Finite {S : Shape} (X : S.Idx → EReal) : Prop := ∀ i, ∃ t : ℝ, X i = (t : EReal)

/-! ## The two spellings of the softplus -/

theorem cmp_une_self (v : EReal) : Ideal.cmp .une v v = 0#1 := by simp [Ideal.cmp]
theorem cmp_one_self (v : EReal) : Ideal.cmp .one v v = 0#1 := by simp [Ideal.cmp]

/-- The host's spelling: a select on `v - 0 ≠ v - 0`, which is never so. -/
theorem ssp_host (v : EReal) :
    Scalar.select (Ideal.cmp .une (v - zeroW) (v - zeroW)) (v + zeroW)
      (max v zeroW + Ideal.log1p (Ideal.exp (-(max (v - zeroW) (-(v - zeroW)))))) - ln2W = ssp v := by
  rw [cmp_une_self, select_zero]; rfl

/-- The kernel's spelling: the same select on the ordered comparison, and `0 - |.|` for the negation. -/
theorem ssp_kernel (v : EReal) :
    Scalar.select (Ideal.cmp .one (v - zeroW) (v - zeroW)) (v + zeroW)
      (max v zeroW + Ideal.log1p (Ideal.exp (zeroW - (max (v - zeroW) (-(v - zeroW)))))) - ln2W = ssp v := by
  rw [cmp_one_self, select_zero]
  unfold ssp
  rw [show zeroW - max (v - zeroW) (-(v - zeroW)) = -(max (v - zeroW) (-(v - zeroW))) from by
    rw [show zeroW = (0 : EReal) from Ideal.ofBits_zero_f32, zero_sub]]

/-! ## The two spellings of a one-bit word's indicator -/

/-- Widened to 32 bits and read signed, a one-bit word is its own value. -/
theorem ind_widen (b : BitVec 1) : (((b.setWidth 32).toInt : ℝ) : EReal) = ((b.toNat : ℝ) : EReal) := by
  have h : ∀ b : BitVec 1, (b.setWidth 32).toInt = (b.toNat : Int) := by decide
  rw [h b]; norm_cast

theorem ind_one : (((1#1 : BitVec 1).toNat : ℝ) : EReal) = 1 := by norm_num
theorem ind_zero : (((0#1 : BitVec 1).toNat : ℝ) : EReal) = 0 := by norm_num

/-! ## Real entries -/

theorem sub_self_of_real {y : EReal} (h : ∃ t : ℝ, y = (t : EReal)) : y - y = 0 := by
  obtain ⟨t, rfl⟩ := h
  rw [← EReal.coe_sub, sub_self, EReal.coe_zero]

theorem sum_mul_real {ι : Type} (s : Finset ι) (u v : ι → EReal) (hu : ∀ i, ∃ t : ℝ, u i = (t : EReal))
    (hv : ∀ i, ∃ t : ℝ, v i = (t : EReal)) : ∃ t : ℝ, ∑ i ∈ s, u i * v i = (t : EReal) := by
  classical
  induction s using Finset.induction_on with
  | empty => exact ⟨0, by simp⟩
  | insert a s ha ih =>
    obtain ⟨t, ht⟩ := ih
    obtain ⟨p, hp⟩ := hu a
    obtain ⟨q, hq⟩ := hv a
    exact ⟨p * q + t, by rw [Finset.sum_insert ha, ht, hp, hq, ← EReal.coe_mul, ← EReal.coe_add]⟩

theorem proj_real (x Win : Fin 128 → Fin 128 → EReal) (hx : ∀ k i, ∃ t : ℝ, x k i = (t : EReal))
    (hW : ∀ i f, ∃ t : ℝ, Win i f = (t : EReal)) (k f : Fin 128) : ∃ t : ℝ, proj x Win k f = (t : EReal) :=
  sum_mul_real Finset.univ (fun i => x k i) (fun i => Win i f) (hx k) (fun i => hW i f)

/-! ## The row a one-hot product picks -/

/-- A sum against the indicator of one index is the summand there. -/
theorem sum_ite_eq_row (y : Fin 128 → EReal) (k₀ : Fin 128) :
    ∑ k : Fin 128, (if k = k₀ then (1 : EReal) else 0) * y k = y k₀ := by
  rw [Finset.sum_eq_single k₀]
  · rw [if_pos rfl, one_mul]
  · intro k _ hk; rw [if_neg hk, zero_mul]
  · intro h; exact absurd (Finset.mem_univ k₀) h

/-- An in-range index word is the word of its clamped value, and no other index's. -/
theorem word_eq_iff_clamp (w : BitVec 32) (hw : 0 ≤ w.toInt ∧ w.toInt < 128) (k : Fin 128) :
    w = BitVec.ofNat 32 k.val ↔ k = clampIdx w := by
  have hk : k.val < 128 := k.isLt
  have key : ∀ k : Fin 128, (BitVec.ofNat 32 k.val).toInt = (k.val : Int) := by decide
  constructor
  · intro h
    apply Fin.ext
    show k.val = min w.toInt.toNat 127
    subst h
    have := key k
    omega
  · intro h
    have hv : k.val = min w.toInt.toNat 127 := congrArg Fin.val h
    apply BitVec.eq_of_toInt_eq
    have := key k
    omega

end Cert.CfConv

end
-- ==== Proof.KFilter.lean ====
/-
  The filter network of the kernel body read at an index: the first payload of the body,
  two matrix products with a shifted softplus between them, at row `rowOf a n` and channel `f`, is
  `filt a n f` of the loaded blocks.
-/
import proofs.«413347_j6932077216272_3_alg».proof.Proof.Gen.KernelIdeal.Skeleton
import proofs.«413347_j6932077216272_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.CfConv Idealize.ShloMosaic Idealize.ShloMosaic.ValueIdx

/-! ## The first product, `[8192, 64] x [64, 128]`, read at an index -/

/-- The left operand's row is the result's row. -/
theorem mmA_lhs_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
/-- The left operand's column is the contraction position. -/
theorem mmA_lhs_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
/-- The right operand's row is the contraction position. -/
theorem mmA_rhs_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
/-- The right operand's column is the result's column. -/
theorem mmA_rhs_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- Into the zero accumulator the product at `(p, g)` is the sum over the contracted axis of row `p` of the left
    operand against column `g` of the right one. -/
theorem mmA_apply {φ₁ φ₂ : FTy} (L : FVec Ideal S8192x64 φ₁) (R : FVec Ideal S64x128 φ₂) (p : Fin 8192) (g : Fin 128) :
    matmul dot_S8192x64_S64x128_S8192x128_1_0_0_1_n_n none L R (constant (F := Ideal) S8192x128 .f32 0x00000000#32) (ix2 p g)
      = ∑ k : Fin 64, L (ix2 p k) * R (ix2 k g) := by
  refine (Ideal.matmul_constant_zero_apply dot_S8192x64_S64x128_S8192x128_1_0_0_1_n_n none L R (ix2 p g)).trans ?_
  rw [← Equiv.sum_comp (ValueIdx.contrEquiv1 dot_S8192x64_S64x128_S8192x128_1_0_0_1_n_n 64 rfl rfl).symm]
  refine Finset.sum_congr rfl fun k _ => ?_
  have hk := ValueIdx.contrEquiv1_symm_val dot_S8192x64_S64x128_S8192x128_1_0_0_1_n_n 64 rfl rfl k
  have el : dot_S8192x64_S64x128_S8192x128_1_0_0_1_n_n.lhsIdx (ix2 p g) ((ValueIdx.contrEquiv1 dot_S8192x64_S64x128_S8192x128_1_0_0_1_n_n 64 rfl rfl).symm k) = ix2 p k := funext fun a => Fin.ext (by
    match a with
    | ⟨0, _⟩ => exact mmA_lhs_0 _ _
    | ⟨1, _⟩ => exact (mmA_lhs_1 _ _).trans hk)
  have er : dot_S8192x64_S64x128_S8192x128_1_0_0_1_n_n.rhsIdx (ix2 p g) ((ValueIdx.contrEquiv1 dot_S8192x64_S64x128_S8192x128_1_0_0_1_n_n 64 rfl rfl).symm k) = ix2 k g := funext fun a => Fin.ext (by
    match a with
    | ⟨0, _⟩ => exact (mmA_rhs_0 _ _).trans hk
    | ⟨1, _⟩ => exact mmA_rhs_1 _ _)
  rw [el, er]

/-! ## The second product, `[8192, 128] x [128, 128]`, read at an index -/

/-- The left operand's row is the result's row. -/
theorem mmB_lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- The left operand's column is the contraction position. -/
theorem mmB_lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- The right operand's row is the contraction position. -/
theorem mmB_rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- The right operand's column is the result's column. -/
theorem mmB_rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- Into the zero accumulator the product at `(p, g)` is the sum over the contracted axis of row `p` of the left
    operand against column `g` of the right one. -/
theorem mmB_apply {φ₁ φ₂ : FTy} (L : FVec Ideal S8192x128 φ₁) (R : FVec Ideal S128x128 φ₂) (p : Fin 8192) (g : Fin 128) :
    matmul dot_S8192x128_S128x128_S8192x128_1_0_0_1_n_n none L R (constant (F := Ideal) S8192x128 .f32 0x00000000#32) (ix2 p g)
      = ∑ k : Fin 128, L (ix2 p k) * R (ix2 k g) := by
  refine (Ideal.matmul_constant_zero_apply dot_S8192x128_S128x128_S8192x128_1_0_0_1_n_n none L R (ix2 p g)).trans ?_
  rw [← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p g) ((ValueIdx.contrEquiv1 dot_S8192x128_S128x128_S8192x128_1_0_0_1_n_n 128 rfl rfl).symm k) = ix2 p k := funext fun a => Fin.ext (by
    match a with
    | ⟨0, _⟩ => exact mmB_lhs_0 _ _
    | ⟨1, _⟩ => exact (mmB_lhs_1 _ _).trans hk)
  have er : dot_S8192x128_S128x128_S8192x128_1_0_0_1_n_n.rhsIdx (ix2 p g) ((ValueIdx.contrEquiv1 dot_S8192x128_S128x128_S8192x128_1_0_0_1_n_n 128 rfl rfl).symm k) = ix2 k g := funext fun a => Fin.ext (by
    match a with
    | ⟨0, _⟩ => exact (mmB_rhs_0 _ _).trans hk
    | ⟨1, _⟩ => exact mmB_rhs_1 _ _)
  rw [el, er]

/-! ## The bias row and the shifted softplus, read at an index -/

/-- A bias vector given a leading unit axis and broadcast over the 8192 rows reads, at `(p, g)`, its entry `g`. -/
theorem bias_row_apply (b : FVec Ideal S128 .f32) (p : Fin 8192) (g : Fin 128) :
    broadcastTo S8192x128 (shapeCast S1x128 b shapeCasts_S128_S1x128) broadcasts_S1x128_S8192x128 (ix2 p g) = b (ix1 g) :=
  (broadcastTo_1b_ab_apply _ broadcasts_S1x128_S8192x128 p g).trans (shapeCast_a_1a_apply b shapeCasts_S128_S1x128 0 g)

/-- The block of radial basis values with its leading unit axis dropped reads, at `(p, q)`, the block at `(0, p, q)`. -/
theorem block_apply (v0 : FVec Ideal S1x8192x64 .f32) (p : Fin 8192) (q : Fin 64) :
    shapeCast S8192x64 v0 shapeCasts_S1x8192x64_S8192x64 (ix2 p q) = v0 (ix3 0 p q) :=
  shapeCast_1ab_ab_apply v0 shapeCasts_S1x8192x64_S8192x64 p q

/-- The kernel's spelling of the shifted softplus, applied to a whole vector, is `ssp` entry by entry. -/
theorem ssp_vec_apply (X : FVec Ideal S8192x128 .f32) (i : S8192x128.Idx) :
    subf (select (cmpf .one (subf X (broadcast S8192x128 (Scalar.ofBits .f32 0x00000000#32))) (subf X (broadcast S8192x128 (Scalar.ofBits .f32 0x00000000#32))))
        (addf X (broadcast S8192x128 (Scalar.ofBits .f32 0x00000000#32)))
        (addf (maximumf X (broadcast S8192x128 (Scalar.ofBits .f32 0x00000000#32)))
          (log1p (exp (subf (broadcast S8192x128 (Scalar.ofBits .f32 0x00000000#32)) (absf (subf X (broadcast S8192x128 (Scalar.ofBits .f32 0x00000000#32)))))))))
      (broadcast S8192x128 (Scalar.ofBits .f32 0x3F317218#32)) i = ssp (X i) :=
  ssp_kernel (X i)

/-! ## The filter network -/

/-- The filter network at pair row `rowOf a n`, channel `f`. -/
theorem pay2_apply (v0 : FVec Ideal S1x8192x64 .f32) (v3 : FVec Ideal S64x128 .f32) (v6 : FVec Ideal S128 .f32)
    (v27 : FVec Ideal S128x128 .f32) (v30 : FVec Ideal S128 .f32) (a : Fin 128) (n : Fin 64) (f : Fin 128) :
    k0_pay2 (F := Ideal) v0 v3 v6 v27 v30 (ix2 (rowOf a n) f)
      = filt (fun a n q => v0 (ix3 0 (rowOf a n) q)) (fun q g => v3 (ix2 q g)) (fun g => v6 (ix1 g))
          (fun g f => v27 (ix2 g f)) (fun f => v30 (ix1 f)) a n f := by
  unfold k0_pay2
  refine (congrArg₂ (· + ·) (mmB_apply _ _ (rowOf a n) f) (bias_row_apply v30 (rowOf a n) f)).trans ?_
  unfold Cert.CfConv.filt
  refine congrArg (· + v30 (ix1 f)) (Finset.sum_congr rfl fun g _ => ?_)
  refine congrArg (· * v27 (ix2 g f)) ?_
  refine (ssp_vec_apply _ (ix2 (rowOf a n) g)).trans ?_
  unfold Cert.CfConv.hidden
  refine congrArg ssp ?_
  refine (congrArg₂ (· + ·) (mmA_apply _ _ (rowOf a n) g) (bias_row_apply v6 (rowOf a n) g)).trans ?_
  refine congrArg (· + v6 (ix1 g)) (Finset.sum_congr rfl fun q _ => ?_)
  exact congrArg (· * v3 (ix2 q g)) (block_apply v0 (rowOf a n) q)

end Cert.KernelIdeal.Bridge

end
-- ==== Proof.KGather.lean ====
/-
  The body's second large payload read at an index: the cosine cutoff applied to the filter, the
  embedding projected, the neighbour's projected row picked by a one-hot matrix product (taken twice,
  against the projection and against its difference from itself, which is zero for real entries), and
  their product.
-/
import proofs.«413347_j6932077216272_3_alg».proof.Proof.Gen.KernelIdeal.Skeleton
import proofs.«413347_j6932077216272_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.CfConv Idealize.ShloMosaic Idealize.ShloMosaic.ValueIdx

namespace Gather

/-! ## The layout operations read at an index -/

/-- The pair array `[128, 64]` re-laid as a column `[8192, 1]` reads, at row `64 a + n`, the entry `(a, n)`. -/
theorem col_cast_apply {α : Type} (x : S128x64.Idx → α) (a : Fin 128) (n : Fin 64) :
    shapeCast S8192x1 x shapeCasts_S128x64_S8192x1 (ix2 (rowOf a n) (0 : Fin 1)) = x (ix2 a n) :=
  shapeCast_apply x shapeCasts_S128x64_S8192x1 _ _ (by
    rw [Shape.rowMajor_val_two, Shape.rowMajor_val_two]
    show a.val * 64 + n.val = (a.val * 64 + n.val) * 1 + 0
    omega)

/-- A column `[8192, 1]` broadcast along 128 channels reads, at `(r, f)`, the column's row `r`. -/
theorem col_bcast_apply {α : Type} (v : S8192x1.Idx → α) (r : Fin 8192) (f : Fin 128) :
    broadcastTo S8192x128 v broadcasts_S8192x1_S8192x128 (ix2 r f) = v (ix2 r (0 : Fin 1)) := by
  refine broadcastTo_apply v broadcasts_S8192x1_S8192x128 (ix2 r f) (ix2 r (0 : Fin 1)) fun ax => ?_
  match ax with
  | ⟨0, _⟩ =>
    show r.val = if (8192 : Nat) = 1 then 0 else r.val
    rw [if_neg (by decide)]
  | ⟨1, _⟩ =>
    show 0 = if (1 : Nat) = 1 then 0 else f.val
    rw [if_pos rfl]

/-! ## The matrix products read at an index

Each `tpu.matmul` contracts the left operand's columns with the right operand's rows. Its operand indices at
result index `(r, f)` and contraction position `k` are `(r, k)` and `(k, f)`: one lemma per axis, then the
product into the zero accumulator as a sum over `Fin 128`. -/

theorem lhs_sq_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_sq_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhs_sq_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhs_sq_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The square product `[128, 128] · [128, 128]` into zero, at `(r, f)`. -/
theorem mm_sq_apply {φ₁ φ₂ : FTy} (L : FVec Ideal S128x128 φ₁) (R : FVec Ideal S128x128 φ₂) (r : Fin 128) (f : Fin 128) :
    FloatOps.matmul dot_S128x128_S128x128_S128x128_1_0_0_1_n_n none L R (constant (F := Ideal) S128x128 .f32 0x00000000#32) (ix2 r f)
      = ∑ k : Fin 128, L (ix2 r k) * R (ix2 k f) := by
  refine (Ideal.matmul_constant_zero_apply dot_S128x128_S128x128_S128x128_1_0_0_1_n_n none L R (ix2 r f)).trans ?_
  rw [← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 r f) ((ValueIdx.contrEquiv1 dot_S128x128_S128x128_S128x128_1_0_0_1_n_n 128 rfl rfl).symm k) = ix2 r k := funext fun a => Fin.ext (by
    match a with
    | ⟨0, _⟩ => exact lhs_sq_0 _ _
    | ⟨1, _⟩ => exact (lhs_sq_1 _ _).trans hk)
  have er : dot_S128x128_S128x128_S128x128_1_0_0_1_n_n.rhsIdx (ix2 r f) ((ValueIdx.contrEquiv1 dot_S128x128_S128x128_S128x128_1_0_0_1_n_n 128 rfl rfl).symm k) = ix2 k f := funext fun a => Fin.ext (by
    match a with
    | ⟨0, _⟩ => exact (rhs_sq_0 _ _).trans hk
    | ⟨1, _⟩ => exact rhs_sq_1 _ _)
  rw [el, er]

theorem lhs_big_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_big_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_big_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_big_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The tall product `[8192, 128] · [128, 128]` into zero, at `(r, f)`. -/
theorem mm_big_apply {φ₁ φ₂ : FTy} (L : FVec Ideal S8192x128 φ₁) (R : FVec Ideal S128x128 φ₂) (r : Fin 8192) (f : Fin 128) :
    FloatOps.matmul dot_S8192x128_S128x128_S8192x128_1_0_0_1_n_n none L R (constant (F := Ideal) S8192x128 .f32 0x00000000#32) (ix2 r f)
      = ∑ k : Fin 128, L (ix2 r k) * R (ix2 k f) := by
  refine (Ideal.matmul_constant_zero_apply dot_S8192x128_S128x128_S8192x128_1_0_0_1_n_n none L R (ix2 r f)).trans ?_
  rw [← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 r f) ((ValueIdx.contrEquiv1 dot_S8192x128_S128x128_S8192x128_1_0_0_1_n_n 128 rfl rfl).symm k) = ix2 r k := funext fun a => Fin.ext (by
    match a with
    | ⟨0, _⟩ => exact lhs_big_0 _ _
    | ⟨1, _⟩ => exact (lhs_big_1 _ _).trans hk)
  have er : dot_S8192x128_S128x128_S8192x128_1_0_0_1_n_n.rhsIdx (ix2 r f) ((ValueIdx.contrEquiv1 dot_S8192x128_S128x128_S8192x128_1_0_0_1_n_n 128 rfl rfl).symm k) = ix2 k f := funext fun a => Fin.ext (by
    match a with
    | ⟨0, _⟩ => exact (rhs_big_0 _ _).trans hk
    | ⟨1, _⟩ => exact rhs_big_1 _ _)
  rw [el, er]

/-! ## The index words -/

/-- The in-kernel clamp `min 127 (max 0 w)`, read signed, fixes a word already in `[0, 127]`. -/
theorem clamp_id (w : BitVec 32) (hw : 0 ≤ w.toInt ∧ w.toInt < 128) :
    IntOp.minsi 127#32 (IntOp.maxsi 0#32 w) = w := by
  have h0 : (0#32 : BitVec 32).toInt = 0 := by decide
  have h127 : (127#32 : BitVec 32).toInt = 127 := by decide
  have hmax : IntOp.maxsi 0#32 w = w := by
    unfold IntOp.maxsi
    rw [if_neg]
    simp only [BitVec.slt, h0, decide_eq_true_eq]
    omega
  rw [hmax]
  unfold IntOp.minsi
  rw [if_neg]
  simp only [BitVec.slt, h127, decide_eq_true_eq]
  omega

/-- The equality test of two words is the bit `1` exactly when they are equal. -/
theorem cmpi_eq_one_iff (x y : BitVec 32) : IntOp.cmpi .eq x y = 1#1 ↔ x = y := by
  have hb : ∀ b : Bool, BitVec.ofBool b = 1#1 ↔ b = true := by decide
  simp only [IntOp.cmpi, hb, beq_iff_eq]

/-- The indicator, as a float, of "the in-range index word `w` is the word of column `k`": one at column
    `clampIdx w`, zero elsewhere. -/
theorem onehot_word (w : BitVec 32) (hw : 0 ≤ w.toInt ∧ w.toInt < 128) (k : Fin 128) :
    ((((IntOp.cmpi .eq w (BitVec.ofNat 32 k.val)).setWidth 32).toInt : ℝ) : EReal)
      = if k = clampIdx w then (1 : EReal) else 0 := by
  rw [ind_widen]
  by_cases h : k = clampIdx w
  · rw [if_pos h, (cmpi_eq_one_iff _ _).mpr ((word_eq_iff_clamp w hw k).mpr h)]
    exact ind_one
  · rw [if_neg h, eq_zero_of_ne_one fun hc => h ((word_eq_iff_clamp w hw k).mp ((cmpi_eq_one_iff _ _).mp hc))]
    exact ind_zero

/-! ## The stages of the payload -/

/-- The clamped index column at row `64 a + n` is the index word of the pair `(a, n)`. -/
theorem idxcol_apply (v57 : IVec S1x128x64 32)
    (hN : ∀ (a : Fin 128) (n : Fin 64), 0 ≤ (v57 (ix3 0 a n)).toInt ∧ (v57 (ix3 0 a n)).toInt < 128)
    (a : Fin 128) (n : Fin 64) :
    minsi (broadcast S8192x1 127#32) (maxsi (broadcast S8192x1 0#32)
        (shapeCast S8192x1 (shapeCast S128x64 v57 shapeCasts_S1x128x64_S128x64) shapeCasts_S128x64_S8192x1))
      (ix2 (rowOf a n) (0 : Fin 1)) = v57 (ix3 0 a n) := by
  show IntOp.minsi 127#32 (IntOp.maxsi 0#32
    (shapeCast S8192x1 (shapeCast S128x64 v57 shapeCasts_S1x128x64_S128x64) shapeCasts_S128x64_S8192x1 (ix2 (rowOf a n) (0 : Fin 1)))) = _
  rw [col_cast_apply, shapeCast_1ab_ab_apply]
  exact clamp_id _ (hN a n)

/-- The one-hot matrix: a column of in-range index words, broadcast along the 128 columns and compared with the
    column number, holds at `(r, k)` one where `k` is the clamped index of row `r`'s word and zero elsewhere. -/
theorem onehot_apply (c : IVec S8192x1 32) (r : Fin 8192) (w : BitVec 32) (hw : 0 ≤ w.toInt ∧ w.toInt < 128)
    (hc : c (ix2 r (0 : Fin 1)) = w) (k : Fin 128) :
    (sitofp .f32 (extui 32 (cmpi .eq (broadcastTo S8192x128 c broadcasts_S8192x1_S8192x128)
        (iota .tc S8192x128 32 [1] iota_S8192x128_d1_w32)) natLt_1_32) : FVec Ideal S8192x128 .f32) (ix2 r k)
      = if k = clampIdx w then (1 : EReal) else 0 := by
  show ((((IntOp.cmpi .eq (broadcastTo S8192x128 c broadcasts_S8192x1_S8192x128 (ix2 r k))
    (BitVec.ofNat 32 (0 * 128 + k.val))).setWidth 32).toInt : ℝ) : EReal) = _
  rw [col_bcast_apply, hc, Nat.zero_mul, Nat.zero_add]
  exact onehot_word w hw k

/-- The projection `y = x · Win` at `(k, f)`; the embedding block's leading unit axis is dropped first. -/
theorem y_apply (v51 : FVec Ideal S1x128x128 .f32) (v54 : FVec Ideal S128x128 .f32) (k f : Fin 128) :
    FloatOps.matmul dot_S128x128_S128x128_S128x128_1_0_0_1_n_n none
        (truncf .bf16 (shapeCast S128x128 v51 shapeCasts_S1x128x128_S128x128) bitsLt_bf16_f32)
        (truncf .bf16 v54 bitsLt_bf16_f32) (constant (F := Ideal) S128x128 .f32 0x00000000#32) (ix2 k f)
      = proj (fun k i => v51 (ix3 0 k i)) (fun i f => v54 (ix2 i f)) k f := by
  refine (mm_sq_apply _ _ k f).trans ?_
  unfold proj
  refine Finset.sum_congr rfl fun i _ => ?_
  exact congrArg (fun t : EReal => t * v54 (ix2 i f)) (shapeCast_1ab_ab_apply v51 shapeCasts_S1x128x128_S128x128 k i)

/-- A matrix whose row `r` is one-hot at column `k₀`, times `Y`, is at `(r, f)` the entry `Y (k₀, f)`. -/
theorem gather_apply {φ₁ φ₂ : FTy} (H : FVec Ideal S8192x128 φ₁) (Y : FVec Ideal S128x128 φ₂) (r : Fin 8192) (k₀ : Fin 128)
    (hH : ∀ k : Fin 128, H (ix2 r k) = if k = k₀ then (1 : EReal) else 0) (f : Fin 128) :
    FloatOps.matmul dot_S8192x128_S128x128_S8192x128_1_0_0_1_n_n none H Y (constant (F := Ideal) S8192x128 .f32 0x00000000#32) (ix2 r f)
      = Y (ix2 k₀ f) := by
  refine (mm_big_apply H Y r f).trans ?_
  refine Eq.trans (Finset.sum_congr rfl fun k _ => ?_) (sum_ite_eq_row (fun k => Y (ix2 k f)) k₀)
  rw [hH k]

/-- The two one-hot products the kernel adds, against `Y` and against `Y - Y`, give `Y`'s picked entry where
    that entry is a real number (then `Y - Y` is zero there). -/
theorem gather_twice (H : FVec Ideal S8192x128 .bf16) (Y : FVec Ideal S128x128 .f32) (r : Fin 8192) (k₀ : Fin 128)
    (hH : ∀ k : Fin 128, H (ix2 r k) = if k = k₀ then (1 : EReal) else 0) (f : Fin 128)
    (hY : ∃ t : ℝ, Y (ix2 k₀ f) = (t : EReal)) :
    FloatOps.matmul dot_S8192x128_S128x128_S8192x128_1_0_0_1_n_n none H (truncf .bf16 Y bitsLt_bf16_f32)
        (constant (F := Ideal) S8192x128 .f32 0x00000000#32) (ix2 r f)
      + FloatOps.matmul dot_S8192x128_S128x128_S8192x128_1_0_0_1_n_n none H (truncf .bf16 (subf Y Y) bitsLt_bf16_f32)
        (constant (F := Ideal) S8192x128 .f32 0x00000000#32) (ix2 r f)
      = Y (ix2 k₀ f) := by
  rw [gather_apply H _ r k₀ hH f, gather_apply H _ r k₀ hH f]
  show Y (ix2 k₀ f) + (Y (ix2 k₀ f) - Y (ix2 k₀ f)) = _
  rw [sub_self_of_real hY, add_zero]

end Gather

open Gather

/-- The gathered projection times the cut-off filter at pair row `rowOf a n`, channel `f`: `v33` is the filter
    there, `v35` the distances, `v38` their cosines, `v39` the ones, `v51` / `v54` the embedding and its
    projection matrix, `v57` the neighbour indices (in range, so that the in-kernel clamp is the identity). -/
theorem pay6_apply (v33 : FVec Ideal S8192x128 .f32) (v35 v38 v39 : FVec Ideal S128x64 .f32)
    (v51 : FVec Ideal S1x128x128 .f32) (v54 : FVec Ideal S128x128 .f32) (v57 : IVec S1x128x64 32)
    (hN : ∀ (a : Fin 128) (n : Fin 64), 0 ≤ (v57 (ix3 0 a n)).toInt ∧ (v57 (ix3 0 a n)).toInt < 128)
    (hx : ∀ k i : Fin 128, ∃ t : ℝ, v51 (ix3 0 k i) = (t : EReal))
    (hW : ∀ i f : Fin 128, ∃ t : ℝ, v54 (ix2 i f) = (t : EReal))
    (a : Fin 128) (n : Fin 64) (f : Fin 128) :
    k0_pay6 (F := Ideal) v33 v35 v38 v39 v51 v54 v57 (ix2 (rowOf a n) f)
      = proj (fun k i => v51 (ix3 0 k i)) (fun i f => v54 (ix2 i f)) (clampIdx (v57 (ix3 0 a n))) f
          * (v33 (ix2 (rowOf a n) f)
              * ((halfW * (v38 (ix2 a n) + v39 (ix2 a n)))
                  * (((Ideal.cmp .olt (v35 (ix2 a n)) fiveW).toNat : ℝ) : EReal))) := by
  unfold k0_pay6
  refine congrArg₂ (fun p q : EReal => p * q) ?_ (congrArg (fun q : EReal => v33 (ix2 (rowOf a n) f) * q) ?_)
  · -- the two one-hot products pick the projection's row at the clamped neighbour index
    refine (gather_twice _ _ (rowOf a n) (clampIdx (v57 (ix3 0 a n)))
      (fun k => onehot_apply _ (rowOf a n) _ (hN a n) (idxcol_apply v57 hN a n) k) f ?_).trans (y_apply v51 v54 _ f)
    obtain ⟨t, ht⟩ := proj_real (fun k i => v51 (ix3 0 k i)) (fun i f => v54 (ix2 i f)) hx hW (clampIdx (v57 (ix3 0 a n))) f
    exact ⟨t, (y_apply v51 v54 _ f).trans ht⟩
  · -- the cut-off column, broadcast along the channels, read back at the pair `(a, n)`
    refine (col_bcast_apply _ (rowOf a n) f).trans ((col_cast_apply _ a n).trans ?_)
    exact congrArg (fun t : EReal => (halfW * (v38 (ix2 a n) + v39 (ix2 a n))) * t)
      (ind_widen (Ideal.cmp .olt (v35 (ix2 a n)) fiveW))

end Cert.KernelIdeal.Bridge

end
-- ==== Proof.KOut.lean ====
/-
  The body's result block as a function of its input blocks: the small payloads (a block re-laid, the
  cosine, the ones, the mask broadcast along the channels), the last payload (the sum over the neighbour
  slots, the output layer, the shifted softplus), and their composition: entry `(0, a, o)` of the block
  the body leaves is `outv a o` of the input blocks.
-/
import proofs.«413347_j6932077216272_3_alg».proof.Proof.Gen.KernelIdeal.Frame
import proofs.«413347_j6932077216272_3_alg».proof.Proof.KFilter
import proofs.«413347_j6932077216272_3_alg».proof.Proof.KGather

noncomputable section

namespace Cert.KernelIdeal.Bridge

open Cert.KernelIdeal Cert.KernelIdeal.Gen Cert.CfConv Idealize.ShloMosaic Idealize.ShloMosaic.ValueIdx

namespace Out

/-! ## Zero offsets, however spelt -/

theorem ko_hz1 : (![0] : Fin 1 → Nat) = fun _ => 0 := funext fun a => by fin_cases a <;> rfl
theorem ko_hz2 : (![0, 0] : Fin 2 → Nat) = fun _ => 0 := funext fun a => by fin_cases a <;> rfl
theorem ko_hz3 : (![0, 0, 0] : Fin 3 → Nat) = fun _ => 0 := funext fun a => by fin_cases a <;> rfl

/-! ## Layout operations of the body read at an index -/

/-- A column `[a, 1]` broadcast along a new extent `b` reads, at `(p, c)`, the column at `p`. -/
theorem ko_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair array `[128, 64]` re-laid as a column `[8192, 1]`: row `64 a + n` holds entry `(a, n)`. -/
theorem ko_cast_pairs_column {α : Type} (x : S128x64.Idx → α) (h : S128x64.ShapeCasts S8192x1) (a : Fin 128) (n : Fin 64) :
    shapeCast S8192x1 x h (ix2 (rowOf a n) (0 : Fin 1)) = x (ix2 a n) :=
  shapeCast_apply x h _ _ (by
    rw [Shape.rowMajor_val_two, Shape.rowMajor_val_two]
    show a.val * 64 + n.val = (a.val * 64 + n.val) * 1 + 0
    omega)

/-- The row array `[8192, 128]` re-laid as `[128, 64, 128]`: entry `(a, n, f)` is row `64 a + n`, column `f`. -/
theorem ko_cast_rows_pairs {α : Type} (x : S8192x128.Idx → α) (h : S8192x128.ShapeCasts S128x64x128)
    (a : Fin 128) (n : Fin 64) (f : Fin 128) :
    shapeCast S128x64x128 x h (ix3 a n f) = x (ix2 (rowOf a n) f) :=
  shapeCast_apply x h _ _ (by
    rw [Shape.rowMajor_val_two, Shape.rowMajor_val_three]
    rfl)

/-- The sum over the middle axis of a `[128, 64, 128]` array, at `(a, f)`: the sum over the 64 slots. -/
theorem ko_sum_slots (src : FVec Ideal S128x64x128 .f32) (h : S128x64x128.Reduces [1] S128x128)
    (hφ : FKind.Formats .f32) (hacc : (0x00000000#32 : BitVec 32) = FKind.add.neutral .f32 hφ) (a f : Fin 128) :
    multiReduction (F := Ideal) .add [1] S128x128 src 0x00000000#32 h hφ hacc (ix2 a f)
      = ∑ n : Fin 64, src (ix3 a n f) := by
  refine (Ideal.multiReduction_add_single src 0x00000000#32 h hφ hacc (ix2 a f)).trans ?_
  show ∑ n : Fin 64, src (h.lift (ix2 a f) n) = _
  refine Finset.sum_congr rfl fun n _ => congrArg src (funext fun c => Fin.ext ?_)
  match c with
  | ⟨0, _⟩ => rfl
  | ⟨1, _⟩ => rfl
  | ⟨2, _⟩ => rfl

/-! ## The output layer's matrix product read at an index -/

theorem ko_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem ko_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem ko_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem ko_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A `[128, 128]` by `[128, 128]` product into the zero accumulator, at `(a, o)`: the sum over the inner index. -/
theorem ko_matmul_apply (L R : FVec Ideal S128x128 .bf16) (a o : Fin 128) :
    matmul (F := Ideal) dot_S128x128_S128x128_S128x128_1_0_0_1_n_n none L R (constant S128x128 .f32 0x00000000#32) (ix2 a o)
      = ∑ f : Fin 128, L (ix2 a f) * R (ix2 f o) := by
  simp only [matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 a o) ((ValueIdx.contrEquiv1 dot_S128x128_S128x128_S128x128_1_0_0_1_n_n 128 rfl rfl).symm k) = ix2 a k := funext fun c => Fin.ext (by
    match c with
    | ⟨0, _⟩ => exact ko_lhs_0 _ _
    | ⟨1, _⟩ => exact (ko_lhs_1 _ _).trans hk)
  have er : dot_S128x128_S128x128_S128x128_1_0_0_1_n_n.rhsIdx (ix2 a o) ((ValueIdx.contrEquiv1 dot_S128x128_S128x128_S128x128_1_0_0_1_n_n 128 rfl rfl).symm k) = ix2 k o := funext fun c => Fin.ext (by
    match c with
    | ⟨0, _⟩ => exact (ko_rhs_0 _ _).trans hk
    | ⟨1, _⟩ => exact ko_rhs_1 _ _)
  rw [el, er]

end Out

open Out

theorem pay3_apply (v34 : FVec Ideal S1x128x64 .f32) (a : Fin 128) (n : Fin 64) :
    k0_pay3 (F := Ideal) v34 (ix2 a n) = v34 (ix3 0 a n) := by
  unfold k0_pay3
  exact shapeCast_1ab_ab_apply v34 shapeCasts_S1x128x64_S128x64 a n

theorem pay4_apply (v34 : FVec Ideal S1x128x64 .f32) (a : Fin 128) (n : Fin 64) :
    k0_pay4 (F := Ideal) v34 (ix2 a n) = Ideal.cos (v34 (ix3 0 a n) * stepW) := by
  unfold k0_pay4
  show Ideal.cos (k0_pay3 (F := Ideal) v34 (ix2 a n) * stepW) = _
  rw [pay3_apply]

theorem pay5_apply (a : Fin 128) (n : Fin 64) : (k0_pay5 (F := Ideal)) (ix2 a n) = oneW := by
  rfl

theorem pay7_apply (v77 : FVec Ideal S1x128x64 .f32) (a : Fin 128) (n : Fin 64) (f : Fin 128) :
    k0_pay7 (F := Ideal) v77 (ix2 (rowOf a n) f) = v77 (ix3 0 a n) := by
  unfold k0_pay7
  refine (ko_broadcastTo_a1_ab_apply _ broadcasts_S8192x1_S8192x128 (rowOf a n) f).trans ?_
  refine (ko_cast_pairs_column _ shapeCasts_S128x64_S8192x1 a n).trans ?_
  exact shapeCast_1ab_ab_apply v77 shapeCasts_S1x128x64_S128x64 a n

/-- The last payload: the masked messages summed over the neighbour slots, the output layer, the softplus. -/
theorem pay1_apply (v80 v81 : FVec Ideal S8192x128 .f32) (v86 : FVec Ideal S128x128 .f32) (v89 : FVec Ideal S128 .f32)
    (a o : Fin 128) :
    k0_pay1 (F := Ideal) v80 v81 v86 v89 (ix3 0 a o)
      = ssp (∑ f : Fin 128, (∑ n : Fin 64, v80 (ix2 (rowOf a n) f) * v81 (ix2 (rowOf a n) f)) * v86 (ix2 f o)
          + v89 (ix1 o)) := by
  unfold k0_pay1
  -- the leading unit axis, then the softplus in the body's spelling around the pre-activation
  refine (shapeCast_ab_1ab_apply _ shapeCasts_S128x128_S1x128x128 0 a o).trans ?_
  refine (ssp_kernel _).trans ?_
  refine congrArg ssp ?_
  -- the pre-activation: the matrix product plus the bias row
  refine (addf_apply _ _ _).trans ?_
  refine congrArg₂ (· + ·) ?_ ?_
  · refine (ko_matmul_apply _ _ a o).trans ?_
    refine Finset.sum_congr rfl fun f _ => ?_
    refine congrArg₂ (· * ·) ?_ rfl
    refine (ko_sum_slots _ reduces_S128x64x128_S128x128 (.inl rfl) rfl a f).trans ?_
    refine Finset.sum_congr rfl fun n _ => ?_
    exact ko_cast_rows_pairs _ _ a n f
  · refine (broadcastTo_1b_ab_apply _ broadcasts_S1x128_S128x128 a o).trans ?_
    exact shapeCast_a_1a_apply v89 shapeCasts_S128_S1x128 0 o

/-- THE BLOCK THE BODY LEAVES, entry `(0, a, o)`: `outv a o` of the twelve input blocks. -/
theorem out_apply (x0 : FVec Ideal S1x128x128 .f32) (x1 : FVec Ideal S1x128x64 .f32) (x2 : IVec S1x128x64 32)
    (x3 : FVec Ideal S1x128x64 .f32) (x4 : FVec Ideal S1x8192x64 .f32) (x5 : FVec Ideal S128x128 .f32)
    (x6 : FVec Ideal S64x128 .f32) (x7 : FVec Ideal S128 .f32) (x8 : FVec Ideal S128x128 .f32)
    (x9 : FVec Ideal S128 .f32) (x10 : FVec Ideal S128x128 .f32) (x11 : FVec Ideal S128 .f32)
    (hN : ∀ (a : Fin 128) (n : Fin 64), 0 ≤ (x2 (ix3 0 a n)).toInt ∧ (x2 (ix3 0 a n)).toInt < 128)
    (hx : ∀ k i : Fin 128, ∃ t : ℝ, x0 (ix3 0 k i) = (t : EReal))
    (hW : ∀ i f : Fin 128, ∃ t : ℝ, x5 (ix2 i f) = (t : EReal))
    (a o : Fin 128) :
    out0_12 (F := Ideal) x0 x1 x2 x3 x4 x5 x6 x7 x8 x9 x10 x11 (ix3 0 a o)
      = outv (fun k i => x0 (ix3 0 k i)) (fun a n => x1 (ix3 0 a n)) (fun a n => x2 (ix3 0 a n))
          (fun a n => x3 (ix3 0 a n)) (fun a n q => x4 (ix3 0 (rowOf a n) q)) (fun i f => x5 (ix2 i f))
          (fun q g => x6 (ix2 q g)) (fun g => x7 (ix1 g)) (fun g f => x8 (ix2 g f)) (fun f => x9 (ix1 f))
          (fun f o => x10 (ix2 f o)) (fun o => x11 (ix1 o)) a o := by
  -- the one store through the whole buffer leaves its payload; each load through a whole buffer reads it
  unfold out0_12
  rw [View.canon_unit_zero ko_hz3]
  simp only [View.ld_unit_zero (S := S1x8192x64) ko_hz3, View.ld_unit_zero (S := S64x128) ko_hz2,
    View.ld_unit_zero (S := S128) ko_hz1, View.ld_unit_zero (S := S128x128) ko_hz2,
    View.ld_unit_zero (S := S1x128x64) ko_hz3, View.ld_unit_zero (S := S1x128x128) ko_hz3]
  -- the last payload, then the messages under the two sums
  refine (pay1_apply _ _ x10 x11 a o).trans ?_
  unfold outv
  refine congrArg ssp (congrArg₂ (· + ·) (Finset.sum_congr rfl fun f _ => congrArg₂ (· * ·) ?_ rfl) rfl)
  unfold agg
  refine Finset.sum_congr rfl fun n _ => ?_
  rw [pay6_apply _ _ _ _ x0 x5 x2 hN hx hW a n f, pay7_apply, pay2_apply, pay3_apply, pay4_apply, pay5_apply]
  rfl

end Cert.KernelIdeal.Bridge

end
-- ==== Proof.Blocks.lean ====
/-
  From blocks to the array. Grid point `t` is batch entry `t`: every per-batch window's block at `t` is the
  slice `[t, :, :]` of its array, the weights' windows are their whole arrays, and the block written back is
  block `t` of the result. Two windows stage arrays that host operations wrote before the call: the
  neighbour indices clamped to `[0, 127]` (the identity on indices in range) and the radial basis
  expansion with its atom and neighbour axes merged. With the body's block (`out_apply`) this makes what
  point `t` writes back block `t` of `G` of the argument arrays, and the 32 blocks cover the result.
-/
import proofs.«413347_j6932077216272_3_alg».proof.Proof.Gen.KernelIdeal.Value
import proofs.«413347_j6932077216272_3_alg».proof.Proof.KOut

noncomputable section

namespace Cert.KernelIdeal.Bridge

open Cert.KernelIdeal Cert.KernelIdeal.Gen Cert.KernelIdeal.Value Cert.CfConv Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ) (ρ : Dev nD → PrngReg)

/-- `G` of core `c`'s twelve argument arrays as launched. -/
abbrev GA (c : Dev nD) : S32x128x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- What the precondition gives on core `c`: neighbour indices in range, the embedding and its projection
    matrix real. -/
def Good (c : Dev nD) : Prop :=
  InRange (m ((c : Thread nD τ).loc main_arg2)) ∧ Finite (S := S32x128x128) (m ((c : Thread nD τ).loc main_arg0))
    ∧ Finite (S := S128x128) (m ((c : Thread nD τ).loc main_arg5))

namespace Blocks

/-- The printed index maps, decided over the 32 grid points: each per-batch window's block index at point
    `t` is `(t, 0, 0)`. -/
theorem idx_batch : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_12.index t (0 : Fin 3) = t.val ∧ win0_12.index t (1 : Fin 3) = 0 ∧ win0_12.index t (2 : Fin 3) = 0) :=
  (by decide +kernel : ∀ t : Fin grid0.N, _)

/-- The weights' and biases' windows have block index zero at every point: their block is the whole array. -/
theorem idx_whole : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 1) = 0)
    ∧ (win0_8.index t (0 : Fin 2) = 0 ∧ win0_8.index t (1 : Fin 2) = 0)
    ∧ (win0_9.index t (0 : Fin 1) = 0)
    ∧ (win0_10.index t (0 : Fin 2) = 0 ∧ win0_10.index t (1 : Fin 2) = 0)
    ∧ (win0_11.index t (0 : Fin 1) = 0) :=
  (by decide +kernel : ∀ t : Fin grid0.N, _)

/-- Clamping into `[0, 127]` leaves a word that reads signed inside that range as it is. -/
theorem clamp_id (w : BitVec 32) (hw : 0 ≤ w.toInt ∧ w.toInt < 128) : IntOp.minsi 127#32 (IntOp.maxsi 0#32 w) = w := by
  have h0 : (0#32 : BitVec 32).toInt = 0 := by decide
  have h127 : (127#32 : BitVec 32).toInt = 127 := by decide
  have hi : IntOp.maxsi 0#32 w = w := by
    unfold IntOp.maxsi
    rw [if_neg (by simp only [BitVec.slt, decide_eq_true_eq]; omega)]
  rw [hi]
  unfold IntOp.minsi
  rw [if_neg (by simp only [BitVec.slt, decide_eq_true_eq]; omega)]

/-- The array the neighbour window stages: the host's clamp of the neighbour argument, elementwise. -/
theorem V_nbr (c : Dev nD) : (V m c main_v0 : S32x128x64.Idx → BitVec 32)
    = minsi (broadcastInDim S32x128x64 ![] bcast_S_S32x128x64 (constantI S_ 32 127#32))
        (maxsi (broadcastInDim S32x128x64 ![] bcast_S_S32x128x64 (constantI S_ 32 0#32)) (m ((c : Thread nD τ).loc main_arg2))) := by
  dsimp only [Gen.V]
  simp only [Gen.hostOps0, Gen.hostOps0_1, Gen.hostOps0_2, List.flatten_cons, List.flatten_nil, List.append_nil, List.cons_append, List.nil_append]
  after_results
  rfl

/-- The array the basis window stages: the host's reshape of the basis argument, atoms and slots merged. -/
theorem V_rbf (c : Dev nD) : (V m c main_v1 : S32x8192x64.Idx → EReal)
    = shapeCast S32x8192x64 (m ((c : Thread nD τ).loc main_arg4)) shapeCasts_S32x128x64x64_S32x8192x64 := by
  dsimp only [Gen.V]
  simp only [Gen.hostOps0, Gen.hostOps0_1, Gen.hostOps0_2, List.flatten_cons, List.flatten_nil, List.append_nil, List.cons_append, List.nil_append]
  after_results
  rfl

/-! ## The windows' blocks at a point, each named at its literal type -/

abbrev B0 (c : Dev nD) (t : Fin cfg0.N) : FVec Ideal S1x128x128 .f32 := iblk m c 0 t
abbrev B1 (c : Dev nD) (t : Fin cfg0.N) : FVec Ideal S1x128x64 .f32 := iblk m c 1 t
abbrev B2 (c : Dev nD) (t : Fin cfg0.N) : IVec S1x128x64 32 := iblk m c 2 t
abbrev B3 (c : Dev nD) (t : Fin cfg0.N) : FVec Ideal S1x128x64 .f32 := iblk m c 3 t
abbrev B4 (c : Dev nD) (t : Fin cfg0.N) : FVec Ideal S1x8192x64 .f32 := iblk m c 4 t
abbrev B5 (c : Dev nD) (t : Fin cfg0.N) : FVec Ideal S128x128 .f32 := iblk m c 5 t
abbrev B6 (c : Dev nD) (t : Fin cfg0.N) : FVec Ideal S64x128 .f32 := iblk m c 6 t
abbrev B7 (c : Dev nD) (t : Fin cfg0.N) : FVec Ideal S128 .f32 := iblk m c 7 t
abbrev B8 (c : Dev nD) (t : Fin cfg0.N) : FVec Ideal S128x128 .f32 := iblk m c 8 t
abbrev B9 (c : Dev nD) (t : Fin cfg0.N) : FVec Ideal S128 .f32 := iblk m c 9 t
abbrev B10 (c : Dev nD) (t : Fin cfg0.N) : FVec Ideal S128x128 .f32 := iblk m c 10 t
abbrev B11 (c : Dev nD) (t : Fin cfg0.N) : FVec Ideal S128 .f32 := iblk m c 11 t

/-! ## Each block read at an index is its array read at the batch entry's index -/

theorem rd0 (c : Dev nD) (t : Fin cfg0.N) (y : S1x128x128.Idx) (j : S32x128x128.Idx)
    (h0 : (j 0).val = t.val) (h1 : (j 1).val = (y 1).val) (h2 : (j 2).val = (y 2).val) :
    B0 m c t y = (m ((c : Thread nD τ).loc main_arg0) : S32x128x128.Idx → EReal) j := by
  obtain ⟨e0, e1, e2, e3, e4, e12⟩ := idx_batch t
  unfold B0 iblk
  rw [View.read_apply]
  show V m c main_arg0 _ = _
  rw [V_main_arg0]
  refine congrArg _ ?_
  funext a; apply Fin.ext
  have hy : (y 0).val < 1 := (y 0).isLt
  match a with
  | ⟨0, _⟩ => show win0_0.index t (0 : Fin 3) * 1 + 1 * (y 0).val = (j 0).val; omega
  | ⟨1, _⟩ => show win0_0.index t (1 : Fin 3) * 128 + 1 * (y 1).val = (j 1).val; omega
  | ⟨2, _⟩ => show win0_0.index t (2 : Fin 3) * 128 + 1 * (y 2).val = (j 2).val; omega

theorem rd1 (c : Dev nD) (t : Fin cfg0.N) (y : S1x128x64.Idx) (j : S32x128x64.Idx)
    (h0 : (j 0).val = t.val) (h1 : (j 1).val = (y 1).val) (h2 : (j 2).val = (y 2).val) :
    B1 m c t y = (m ((c : Thread nD τ).loc main_arg1) : S32x128x64.Idx → EReal) j := by
  obtain ⟨e0, e1, e2, e3, e4, e12⟩ := idx_batch t
  unfold B1 iblk
  rw [View.read_apply]
  show V m c main_arg1 _ = _
  rw [V_main_arg1]
  refine congrArg _ ?_
  funext a; apply Fin.ext
  have hy : (y 0).val < 1 := (y 0).isLt
  match a with
  | ⟨0, _⟩ => show win0_1.index t (0 : Fin 3) * 1 + 1 * (y 0).val = (j 0).val; omega
  | ⟨1, _⟩ => show win0_1.index t (1 : Fin 3) * 128 + 1 * (y 1).val = (j 1).val; omega
  | ⟨2, _⟩ => show win0_1.index t (2 : Fin 3) * 64 + 1 * (y 2).val = (j 2).val; omega

theorem rd3 (c : Dev nD) (t : Fin cfg0.N) (y : S1x128x64.Idx) (j : S32x128x64.Idx)
    (h0 : (j 0).val = t.val) (h1 : (j 1).val = (y 1).val) (h2 : (j 2).val = (y 2).val) :
    B3 m c t y = (m ((c : Thread nD τ).loc main_arg3) : S32x128x64.Idx → EReal) j := by
  obtain ⟨e0, e1, e2, e3, e4, e12⟩ := idx_batch t
  unfold B3 iblk
  rw [View.read_apply]
  show V m c main_arg3 _ = _
  rw [V_main_arg3]
  refine congrArg _ ?_
  funext a; apply Fin.ext
  have hy : (y 0).val < 1 := (y 0).isLt
  match a with
  | ⟨0, _⟩ => show win0_3.index t (0 : Fin 3) * 1 + 1 * (y 0).val = (j 0).val; omega
  | ⟨1, _⟩ => show win0_3.index t (1 : Fin 3) * 128 + 1 * (y 1).val = (j 1).val; omega
  | ⟨2, _⟩ => show win0_3.index t (2 : Fin 3) * 64 + 1 * (y 2).val = (j 2).val; omega

theorem rd5 (c : Dev nD) (t : Fin cfg0.N) (y : S128x128.Idx) :
    B5 m c t y = (m ((c : Thread nD τ).loc main_arg5) : S128x128.Idx → EReal) y := by
  obtain ⟨e5, e6, e7, e8, e9, e10, e11⟩ := idx_whole t
  unfold B5 iblk
  rw [View.read_apply]
  show V m c main_arg5 _ = _
  rw [V_main_arg5]
  refine congrArg _ ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem rd6 (c : Dev nD) (t : Fin cfg0.N) (y : S64x128.Idx) :
    B6 m c t y = (m ((c : Thread nD τ).loc main_arg6) : S64x128.Idx → EReal) y := by
  obtain ⟨e5, e6, e7, e8, e9, e10, e11⟩ := idx_whole t
  unfold B6 iblk
  rw [View.read_apply]
  show V m c main_arg6 _ = _
  rw [V_main_arg6]
  refine congrArg _ ?_
  funext a; apply Fin.ext
  match a with
  | ⟨0, _⟩ => show win0_6.index t (0 : Fin 2) * 64 + 1 * (y 0).val = (y 0).val; omega
  | ⟨1, _⟩ => show win0_6.index t (1 : Fin 2) * 128 + 1 * (y 1).val = (y 1).val; omega

theorem rd7 (c : Dev nD) (t : Fin cfg0.N) (y : S128.Idx) :
    B7 m c t y = (m ((c : Thread nD τ).loc main_arg7) : S128.Idx → EReal) y := by
  obtain ⟨e5, e6, e7, e8, e9, e10, e11⟩ := idx_whole t
  unfold B7 iblk
  rw [View.read_apply]
  show V m c main_arg7 _ = _
  rw [V_main_arg7]
  refine congrArg _ ?_
  funext a; apply Fin.ext
  match a with
  | ⟨0, _⟩ => show win0_7.index t (0 : Fin 1) * 128 + 1 * (y 0).val = (y 0).val; omega

theorem rd8 (c : Dev nD) (t : Fin cfg0.N) (y : S128x128.Idx) :
    B8 m c t y = (m ((c : Thread nD τ).loc main_arg8) : S128x128.Idx → EReal) y := by
  obtain ⟨e5, e6, e7, e8, e9, e10, e11⟩ := idx_whole t
  unfold B8 iblk
  rw [View.read_apply]
  show V m c main_arg8 _ = _
  rw [V_main_arg8]
  refine congrArg _ ?_
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem rd9 (c : Dev nD) (t : Fin cfg0.N) (y : S128.Idx) :
    B9 m c t y = (m ((c : Thread nD τ).loc main_arg9) : S128.Idx → EReal) y := by
  obtain ⟨e5, e6, e7, e8, e9, e10, e11⟩ := idx_whole t
  unfold B9 iblk
  rw [View.read_apply]
  show V m c main_arg9 _ = _
  rw [V_main_arg9]
  refine congrArg _ ?_
  funext a; apply Fin.ext
  match a with
  | ⟨0, _⟩ => show win0_9.index t (0 : Fin 1) * 128 + 1 * (y 0).val = (y 0).val; omega

theorem rd10 (c : Dev nD) (t : Fin cfg0.N) (y : S128x128.Idx) :
    B10 m c t y = (m ((c : Thread nD τ).loc main_arg10) : S128x128.Idx → EReal) y := by
  obtain ⟨e5, e6, e7, e8, e9, e10, e11⟩ := idx_whole t
  unfold B10 iblk
  rw [View.read_apply]
  show V m c main_arg10 _ = _
  rw [V_main_arg10]
  refine congrArg _ ?_
  funext a; apply Fin.ext
  match a with
  | ⟨0, _⟩ => show win0_10.index t (0 : Fin 2) * 128 + 1 * (y 0).val = (y 0).val; omega
  | ⟨1, _⟩ => show win0_10.index t (1 : Fin 2) * 128 + 1 * (y 1).val = (y 1).val; omega

theorem rd11 (c : Dev nD) (t : Fin cfg0.N) (y : S128.Idx) :
    B11 m c t y = (m ((c : Thread nD τ).loc main_arg11) : S128.Idx → EReal) y := by
  obtain ⟨e5, e6, e7, e8, e9, e10, e11⟩ := idx_whole t
  unfold B11 iblk
  rw [View.read_apply]
  show V m c main_arg11 _ = _
  rw [V_main_arg11]
  refine congrArg _ ?_
  funext a; apply Fin.ext
  match a with
  | ⟨0, _⟩ => show win0_11.index t (0 : Fin 1) * 128 + 1 * (y 0).val = (y 0).val; omega

/-- The neighbour block: the clamped array at the batch entry's index, which is the argument there when the
    argument's words are in range. -/
theorem rd2 (c : Dev nD) (hN : InRange (m ((c : Thread nD τ).loc main_arg2))) (t : Fin cfg0.N) (y : S1x128x64.Idx) (j : S32x128x64.Idx)
    (h0 : (j 0).val = t.val) (h1 : (j 1).val = (y 1).val) (h2 : (j 2).val = (y 2).val) :
    B2 m c t y = (m ((c : Thread nD τ).loc main_arg2) : S32x128x64.Idx → BitVec 32) j := by
  obtain ⟨e0, e1, e2, e3, e4, e12⟩ := idx_batch t
  unfold B2 iblk
  rw [View.read_apply]
  show V m c main_v0 _ = _
  rw [V_nbr]
  show IntOp.minsi 127#32 (IntOp.maxsi 0#32 ((m ((c : Thread nD τ).loc main_arg2) : S32x128x64.Idx → BitVec 32) _)) = _
  rw [clamp_id _ (hN _)]
  refine congrArg _ ?_
  funext a; apply Fin.ext
  have hy : (y 0).val < 1 := (y 0).isLt
  match a with
  | ⟨0, _⟩ => show win0_2.index t (0 : Fin 3) * 1 + 1 * (y 0).val = (j 0).val; omega
  | ⟨1, _⟩ => show win0_2.index t (1 : Fin 3) * 128 + 1 * (y 1).val = (j 1).val; omega
  | ⟨2, _⟩ => show win0_2.index t (2 : Fin 3) * 64 + 1 * (y 2).val = (j 2).val; omega

/-- The basis block at row `64 a + n`: the reshaped array there, which is the argument at `(t, a, n, q)`. -/
theorem rd4 (c : Dev nD) (t : Fin cfg0.N) (y : S1x8192x64.Idx) (j : S32x128x64x64.Idx)
    (h0 : (j 0).val = t.val) (h1 : (y 1).val = (j 1).val * 64 + (j 2).val) (h2 : (j 3).val = (y 2).val) :
    B4 m c t y = (m ((c : Thread nD τ).loc main_arg4) : S32x128x64x64.Idx → EReal) j := by
  obtain ⟨e0, e1, e2, e3, e4, e12⟩ := idx_batch t
  unfold B4 iblk
  rw [View.read_apply]
  show V m c main_v1 _ = _
  rw [V_rbf]
  refine shapeCast_apply _ _ _ _ ?_
  show (S32x128x64x64.rowMajor j).val = (S32x8192x64.rowMajor (((cfg0.win 4).blk t).view.emb y)).val
  rw [Shape.rowMajor_val_four, Shape.rowMajor_val_three]
  have hy : (y 0).val < 1 := (y 0).isLt
  have hj2 : (j 2).val < 64 := (j 2).isLt
  show (((j 0).val * 128 + (j 1).val) * 64 + (j 2).val) * 64 + (j 3).val
    = ((win0_4.index t (0 : Fin 3) * 1 + 1 * (y 0).val) * 8192 + (win0_4.index t (1 : Fin 3) * 8192 + 1 * (y 1).val)) * 64
        + (win0_4.index t (2 : Fin 3) * 64 + 1 * (y 2).val)
  rw [e4.1, e4.2.1, e4.2.2, h0, h1, h2]
  omega

/-! ## What a point writes back -/

/-- Entry `(0, a, o)` of the block point `t` leaves is entry `(b, a, o)` of `G` of the arguments, `b` the
    batch entry the point stands for: the body's block lemma, then every input block read as its argument array
    at that batch entry. -/
theorem pt_eq (c : Dev nD) (hg : Good m c) (t : Fin cfg0.N) (b : Fin 32) (hb : b.val = t.val) (a o : Fin 128) :
    out0_12 (F := Ideal) (B0 m c t) (B1 m c t) (B2 m c t) (B3 m c t) (B4 m c t) (B5 m c t) (B6 m c t) (B7 m c t) (B8 m c t) (B9 m c t) (B10 m c t) (B11 m c t) (ix3 0 a o) = GA m c (ix3 b a o) := by
  have e0 : (fun k i : Fin 128 => B0 m c t (ix3 0 k i))
      = fun k i => (m ((c : Thread nD τ).loc main_arg0) : S32x128x128.Idx → EReal) (ix3 b k i) :=
    funext fun k => funext fun i => rd0 m c t (ix3 0 k i) (ix3 b k i) hb rfl rfl
  have e1 : (fun (a : Fin 128) (n : Fin 64) => B1 m c t (ix3 0 a n))
      = fun a n => (m ((c : Thread nD τ).loc main_arg1) : S32x128x64.Idx → EReal) (ix3 b a n) :=
    funext fun a => funext fun n => rd1 m c t (ix3 0 a n) (ix3 b a n) hb rfl rfl
  have e2 : (fun (a : Fin 128) (n : Fin 64) => B2 m c t (ix3 0 a n))
      = fun a n => (m ((c : Thread nD τ).loc main_arg2) : S32x128x64.Idx → BitVec 32) (ix3 b a n) :=
    funext fun a => funext fun n => rd2 m c hg.1 t (ix3 0 a n) (ix3 b a n) hb rfl rfl
  have e3 : (fun (a : Fin 128) (n : Fin 64) => B3 m c t (ix3 0 a n))
      = fun a n => (m ((c : Thread nD τ).loc main_arg3) : S32x128x64.Idx → EReal) (ix3 b a n) :=
    funext fun a => funext fun n => rd3 m c t (ix3 0 a n) (ix3 b a n) hb rfl rfl
  have e4 : (fun (a : Fin 128) (n q : Fin 64) => B4 m c t (ix3 0 (rowOf a n) q))
      = fun a n q => (m ((c : Thread nD τ).loc main_arg4) : S32x128x64x64.Idx → EReal) (ix4 b a n q) :=
    funext fun a => funext fun n => funext fun q => rd4 m c t (ix3 0 (rowOf a n) q) (ix4 b a n q) hb rfl rfl
  have e5 : (fun i f : Fin 128 => B5 m c t (ix2 i f))
      = fun i f => (m ((c : Thread nD τ).loc main_arg5) : S128x128.Idx → EReal) (ix2 i f) :=
    funext fun i => funext fun f => rd5 m c t (ix2 i f)
  have e6 : (fun (q : Fin 64) (g : Fin 128) => B6 m c t (ix2 q g))
      = fun q g => (m ((c : Thread nD τ).loc main_arg6) : S64x128.Idx → EReal) (ix2 q g) :=
    funext fun q => funext fun g => rd6 m c t (ix2 q g)
  have e7 : (fun g : Fin 128 => B7 m c t (ix1 g))
      = fun g => (m ((c : Thread nD τ).loc main_arg7) : S128.Idx → EReal) (ix1 g) :=
    funext fun g => rd7 m c t (ix1 g)
  have e8 : (fun g f : Fin 128 => B8 m c t (ix2 g f))
      = fun g f => (m ((c : Thread nD τ).loc main_arg8) : S128x128.Idx → EReal) (ix2 g f) :=
    funext fun g => funext fun f => rd8 m c t (ix2 g f)
  have e9 : (fun f : Fin 128 => B9 m c t (ix1 f))
      = fun f => (m ((c : Thread nD τ).loc main_arg9) : S128.Idx → EReal) (ix1 f) :=
    funext fun f => rd9 m c t (ix1 f)
  have e10 : (fun f o : Fin 128 => B10 m c t (ix2 f o))
      = fun f o => (m ((c : Thread nD τ).loc main_arg10) : S128x128.Idx → EReal) (ix2 f o) :=
    funext fun f => funext fun o => rd10 m c t (ix2 f o)
  have e11 : (fun o : Fin 128 => B11 m c t (ix1 o))
      = fun o => (m ((c : Thread nD τ).loc main_arg11) : S128.Idx → EReal) (ix1 o) :=
    funext fun o => rd11 m c t (ix1 o)
  have hN : ∀ (a : Fin 128) (n : Fin 64), 0 ≤ (B2 m c t (ix3 0 a n)).toInt ∧ (B2 m c t (ix3 0 a n)).toInt < 128 := fun a n => by
    rw [rd2 m c hg.1 t (ix3 0 a n) (ix3 b a n) hb rfl rfl]; exact hg.1 _
  have hx : ∀ k i : Fin 128, ∃ r : ℝ, B0 m c t (ix3 0 k i) = (r : EReal) := fun k i => by
    rw [rd0 m c t (ix3 0 k i) (ix3 b k i) hb rfl rfl]; exact hg.2.1 _
  have hW : ∀ i f : Fin 128, ∃ r : ℝ, B5 m c t (ix2 i f) = (r : EReal) := fun i f => by
    rw [rd5 m c t (ix2 i f)]; exact hg.2.2 _
  rw [out_apply (B0 m c t) (B1 m c t) (B2 m c t) (B3 m c t) (B4 m c t) (B5 m c t) (B6 m c t) (B7 m c t) (B8 m c t) (B9 m c t) (B10 m c t) (B11 m c t) hN hx hW a o, e0, e1, e2, e3, e4, e5, e6, e7, e8, e9, e10, e11]
  rfl

/-- The same at any index of the block and any index of the array with the block's coordinates. -/
theorem pt_gen (c : Dev nD) (hg : Good m c) (t : Fin cfg0.N) (y : S1x128x128.Idx) (j : S32x128x128.Idx)
    (h0 : (j 0).val = t.val) (h1 : (j 1).val = (y 1).val) (h2 : (j 2).val = (y 2).val) :
    out0_12 (F := Ideal) (B0 m c t) (B1 m c t) (B2 m c t) (B3 m c t) (B4 m c t) (B5 m c t) (B6 m c t) (B7 m c t) (B8 m c t) (B9 m c t) (B10 m c t) (B11 m c t) y = GA m c j := by
  have hy : y = ix3 0 (y 1) (y 2) :=
    (eq_ix3 y).trans (congrArg (fun z : Fin 1 => ix3 z (y 1) (y 2)) (Subsingleton.elim _ _))
  have hj : j = ix3 (j 0) (y 1) (y 2) :=
    (eq_ix3 j).trans (by rw [show j 1 = y 1 from Fin.ext h1, show j 2 = y 2 from Fin.ext h2]; rfl)
  rw [hy, hj]
  exact pt_eq m c hg t (j 0) h0 (y 1) (y 2)

/-- WHAT POINT `t` WRITES BACK is block `t` of `G` of the argument arrays. -/
theorem flushed_eq (c : Dev nD) (hg : Good m c) (t : Fin cfg0.N) :
    (dats m 0 c).flushed 12 t = ((cfg0.win 12).blk t).view.read (Elt Ideal) (GA m c) := by
  rw [Value.flushed12]
  obtain ⟨-, -, -, -, -, e12⟩ := idx_batch t
  funext y
  have hy : (y 0).val < 1 := (y 0).isLt
  refine pt_gen m c hg t y (((cfg0.win 12).blk t).view.emb y) ?_ ?_ ?_
  · show win0_12.index t (0 : Fin 3) * 1 + 1 * (y 0).val = t.val; omega
  · show win0_12.index t (1 : Fin 3) * 128 + 1 * (y 1).val = (y 1).val; omega
  · show win0_12.index t (2 : Fin 3) * 128 + 1 * (y 2).val = (y 2).val; omega

/-! ## The 32 blocks cover the result -/

/-- An index of the result is in point `t`'s block iff each coordinate is in the block's range on its axis. -/
theorem mem_blk (t : Fin cfg0.N) (i : S32x128x128.Idx) :
    i ∈ ((cfg0.win 12).blk t).view.set ↔ ∀ a : Fin 3, win0_12.index t a * S1x128x128.size a ≤ (i a).val
      ∧ (i a).val < win0_12.index t a * S1x128x128.size a + S1x128x128.size a := by
  show i ∈ ((View.whole main_v2).slice (win0_12.rect t)).set ↔ _
  rw [View.set_slice_whole, Rect.mem_set_unit]
  exact Iff.rfl

/-- Index `(b, a, o)` lies in the block of point `b`. -/
theorem cover (i : S32x128x128.Idx) :
    ∃ t : Fin cfg0.N, (cfg0.win 12).flush t = true ∧ i ∈ ((cfg0.win 12).blk t).view.set := by
  have hi0 : (i 0).val < 32 := (i 0).isLt
  have hi1 : (i 1).val < 128 := (i 1).isLt
  have hi2 : (i 2).val < 128 := (i 2).isLt
  have hN : cfg0.N = 32 := N_0
  obtain ⟨t, ht⟩ : ∃ t : Fin cfg0.N, t.val = (i 0).val := ⟨⟨(i 0).val, by omega⟩, rfl⟩
  obtain ⟨-, -, -, -, -, e12⟩ := idx_batch t
  refine ⟨t, flush0_12 t, ?_⟩
  rw [mem_blk]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 128 ≤ (i 1).val ∧ (i 1).val < win0_12.index t (1 : Fin 3) * 128 + 128; omega
  | ⟨2, _⟩ => show win0_12.index t (2 : Fin 3) * 128 ≤ (i 2).val ∧ (i 2).val < win0_12.index t (2 : Fin 3) * 128 + 128; omega

end Blocks

/-- The result array after the run is `G` of the arguments. -/
theorem final (c : Dev nD) (hg : Good m c) : (dats m 0 c).arrAt 12 cfg0.N = GA m c :=
  (dats m 0 c).arrAt_eq_of_cover 12 (GA m c) (fun t _ => Blocks.flushed_eq m c hg t) Blocks.cover

/-- The kernel's run, read: the result at `G` of the arguments, the arguments unchanged. -/
theorem run (hg : ∀ c, Good m c) : θ_run defs (onTc (τ := τ) (main (F := Ideal))) ⟨m, fun _ => 0, ρ⟩ fun r => ∀ c : Dev nD,
      r.2.mem ((c : Thread nD τ).loc main_v2) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c (hg c)), (h c).2⟩) (run_blocks m ρ)

end Cert.KernelIdeal.Bridge

end
-- ==== Proof.RefGather.lean ====
/-
  The reference's neighbour gather read at an index. `jnp.take_along_axis` wraps a negative index by the axis
  length, gathers with the index clamped, and keeps the gathered value only where the wrapped index is in
  range (a fill value elsewhere). For indices in `[0, 128)` nothing wraps, the range test holds, and the
  entry `(b, p, f)` of the gathered array is the projected embedding's row `clampIdx` of the index at pair row
  `p = 64 a + n`.
-/
import proofs.«413347_j6932077216272_3_alg».proof.Proof.RefRead
import proofs.«413347_j6932077216272_3_alg».proof.Proof.Spec
import Idealize.ShloMosaic.Lib.StableHlo.Predicate
import Idealize.ShloMosaic.Lib.ReduceAll

noncomputable section

namespace Cert.ReferenceIdeal.Bridge

open Cert.ReferenceIdeal Cert.ReferenceIdeal.ReadP Cert.CfConv Idealize.ShloMosaic Idealize.ShloMosaic.ValueIdx

namespace Gather

/-! ## The operand index of the gather, coordinate by coordinate

The record has one batching axis (operand axis 0 paired with start-indices axis 0), collapses operand axis 1, on which
the single start-index component lands, and keeps operand axis 2 whole as the result's offset axis. So result index
`(b, p, f)` reads the operand at `(b, min (start (b, p, 0)) 127, f)`, the start read signed. -/

/-- The gather's dimension numbers. -/
abbrev gd : GatherDims S32x128x128 S32x8192x1 S32x8192x128 := gather_S32x128x128_S32x8192x1_S32x8192x128_2_1_0_0_1_2_11128

/-- Axis 0 is the batching axis: no start, no offset, the result's batch coordinate. -/
theorem opIdx0 (idx : IVec S32x8192x1 32) (j : S32x8192x128.Idx) :
    (gd.operandIdx j idx 0).val = (j 0).val := by
  show gd.start j idx 0 + gd.batchCoord j 0 + gd.offCoord j 0 = (j 0).val
  rw [GatherDims.start_batching _ _ _ _ (by decide), GatherDims.offCoord_eq_zero _ _ _ (by decide)]
  unfold GatherDims.batchCoord
  rw [dif_pos (by decide)]
  unfold GatherDims.siCoord
  simp only [Nat.zero_add, Nat.add_zero, Fin.val_cast]
  refine congrArg (fun a => (j a).val) ?_
  decide

/-- Axis 2 is the offset axis: no start, no batching, the result's channel coordinate. -/
theorem opIdx2 (idx : IVec S32x8192x1 32) (j : S32x8192x128.Idx) :
    (gd.operandIdx j idx 2).val = (j 2).val := by
  show gd.start j idx 2 + gd.batchCoord j 2 + gd.offCoord j 2 = (j 2).val
  rw [GatherDims.batchCoord_eq_zero _ _ _ (by decide)]
  unfold GatherDims.start
  rw [dif_neg (by decide)]
  unfold GatherDims.offCoord
  rw [dif_pos (by decide)]
  simp only [Nat.zero_add, Nat.add_zero]
  refine congrArg (fun a => (j a).val) ?_
  decide

/-- The start-indices index a result index reads: its batch and row coordinates, and the single component. -/
abbrev siOf (j : S32x8192x128.Idx) : S32x8192x1.Idx := fun a => match a with
  | ⟨0, _⟩ => ⟨(j 0).val, (j 0).isLt⟩
  | ⟨1, _⟩ => ⟨(j 1).val, (j 1).isLt⟩
  | ⟨2, _⟩ => ⟨0, Nat.one_pos⟩

/-- The start-indices index of a result index, one coordinate at a time. -/
theorem siIdx0 (j : S32x8192x128.Idx) (c : Fin gd.startIndexMap.length) : (gd.siIdx j c 0).val = (j 0).val := by
  unfold GatherDims.siIdx
  rw [dif_neg (by decide)]
  unfold GatherDims.siCoord
  simp only [Fin.val_cast]
  refine congrArg (fun a => (j a).val) ?_
  decide

theorem siIdx1 (j : S32x8192x128.Idx) (c : Fin gd.startIndexMap.length) : (gd.siIdx j c 1).val = (j 1).val := by
  unfold GatherDims.siIdx
  rw [dif_neg (by decide)]
  unfold GatherDims.siCoord
  simp only [Fin.val_cast]
  refine congrArg (fun a => (j a).val) ?_
  decide

theorem siIdx2 (j : S32x8192x128.Idx) (c : Fin gd.startIndexMap.length) : (gd.siIdx j c 2).val = 0 := by
  unfold GatherDims.siIdx
  rw [dif_pos (by decide)]
  have h : gd.startIndexMap.length = 1 := rfl
  have := c.isLt
  show c.val = 0
  omega

theorem siIdx_eq (j : S32x8192x128.Idx) (c : Fin gd.startIndexMap.length) : gd.siIdx j c = siOf j := by
  funext a
  refine Fin.ext ?_
  match a with
  | ⟨0, _⟩ => exact siIdx0 j c
  | ⟨1, _⟩ => exact siIdx1 j c
  | ⟨2, _⟩ => exact siIdx2 j c

/-- Axis 1 is the collapsed axis the start index lands on: the start read signed and clamped to `[0, 128 - 1]`. -/
theorem opIdx1 (idx : IVec S32x8192x1 32) (j : S32x8192x128.Idx) :
    (gd.operandIdx j idx 1).val = min (idx (siOf j)).toInt.toNat 127 := by
  show gd.start j idx 1 + gd.batchCoord j 1 + gd.offCoord j 1 = _
  rw [GatherDims.batchCoord_eq_zero _ _ _ (by decide), GatherDims.offCoord_eq_zero _ _ _ (by decide)]
  unfold GatherDims.start
  rw [dif_pos (by decide), siIdx_eq]
  rfl

/-! ## The wrapped index and the range mask, for indices in range -/

theorem toInt_zero32 : (0#32 : BitVec 32).toInt = 0 := by decide
theorem toInt_127 : (127#32 : BitVec 32).toInt = 127 := by decide

/-- A nonnegative index is not wrapped: the select on `index < 0` keeps the index. -/
theorem wrapped_eq (N : (⟨S32x128x64, .i32⟩ : BufTy).Contents (Elt Ideal)) (hN : InRange N) (i : S32x8192x1.Idx) :
    val_main_call1_v4 (F := Ideal) N i = N (idx_main_v26 i) := by
  rw [val_main_call1_v4_apply, val_main_call1_v1_apply, val_main_v26_apply, val_main_call1_v0_apply,
    val_main_call1_c_apply]
  have h0 := (hN (idx_main_v26 i)).1
  have hc : IntOp.cmpi .slt (N (idx_main_v26 i)) 0#32 = 0#1 := by
    apply eq_zero_of_ne_one
    intro h
    have h' := IntOp.cmpi_slt.1 h
    rw [toInt_zero32] at h'
    omega
  rw [hc, select_zero]

/-- The range test `0 ≤ index ≤ 127` holds at every pair row. -/
theorem inrange_one (N : (⟨S32x128x64, .i32⟩ : BufTy).Contents (Elt Ideal)) (hN : InRange N) (i : S32x8192x1.Idx) :
    val_main_call1_v10 (F := Ideal) N i = 1#1 := by
  rw [val_main_call1_v10_apply, val_main_call1_v6_apply, val_main_call1_v9_apply, wrapped_eq N hN,
    val_main_call1_v5_apply, val_main_call1_c_2_apply, val_main_call1_v8_apply, val_main_call1_v7_apply,
    val_main_call1_c_1_apply]
  obtain ⟨h0, h1⟩ := hN (idx_main_v26 i)
  refine IntOp.andi_eq_one.2 ⟨IntOp.cmpi_sge.2 ?_, IntOp.cmpi_sle.2 ?_⟩
  · rw [toInt_zero32]; exact h0
  · rw [toInt_127]; omega

/-- A left fold by `and` from `1` over words that are all `1` is `1`. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- The mask reduced over the unit axis is `1` at every pair row. -/
theorem mask_one (N : (⟨S32x128x64, .i32⟩ : BufTy).Contents (Elt Ideal)) (hN : InRange N) (j : S32x8192.Idx) :
    val_main_call1_v11 (F := Ideal) N j = 1#1 := by
  unfold val_main_call1_v11
  rw [Host.reduce_eq_foldl]
  exact foldl_andi_one _ (inrange_one N hN) _

/-! ## The gather at an index -/

/-- Pair row `64 a + n` of batch `b` is slot `(b, a, n)` of the index array. -/
theorem row_idx (b : Fin 32) (a : Fin 128) (n : Fin 64) (f : Fin 128) :
    idx_main_v26 (siOf (ix3 b (rowOf a n) f)) = ix3 b a n := by
  have hb := b.isLt
  have ha := a.isLt
  have hn := n.isLt
  funext ax
  refine Fin.ext ?_
  match ax with
  | ⟨0, _⟩ => show ((b.val * 8192 + (a.val * 64 + n.val)) * 1 + 0) / 8192 = b.val; omega
  | ⟨1, _⟩ => show ((b.val * 8192 + (a.val * 64 + n.val)) * 1 + 0) / 64 % 128 = a.val; omega
  | ⟨2, _⟩ => show ((b.val * 8192 + (a.val * 64 + n.val)) * 1 + 0) % 64 = n.val; omega

end Gather

open Gather

/-- The gathered array at batch `b`, pair row `rowOf a n`, channel `f`, for in-range indices: the projection
    `val_main_v25` at the neighbour's row. -/
theorem gather_apply (X : (⟨S32x128x128, .f32⟩ : BufTy).Contents (Elt Ideal)) (N : (⟨S32x128x64, .i32⟩ : BufTy).Contents (Elt Ideal))
    (Win : (⟨S128x128, .f32⟩ : BufTy).Contents (Elt Ideal)) (hN : InRange N)
    (b : Fin 32) (a : Fin 128) (n : Fin 64) (f : Fin 128) :
    val_main_v27 (F := Ideal) X N Win (ix3 b (rowOf a n) f)
      = val_main_v25 (F := Ideal) X Win (ix3 b (clampIdx (N (ix3 b a n))) f) := by
  rw [val_main_v27_apply, val_main_call1_v13_apply, mask_one N hN, select_one]
  unfold val_main_call1_v12 Host.gather
  refine congrArg (val_main_v25 (F := Ideal) X Win) ?_
  funext ax
  refine Fin.ext ?_
  match ax with
  | ⟨0, _⟩ => exact opIdx0 _ _
  | ⟨1, _⟩ =>
    refine (opIdx1 _ _).trans ?_
    rw [wrapped_eq N hN, row_idx]
    rfl
  | ⟨2, _⟩ => exact opIdx2 _ _

end Cert.ReferenceIdeal.Bridge

end
-- ==== Proof.RefG.lean ====
/-
  The reference's result array is `G` of its twelve arguments, for neighbour indices in range: the stages
  of the host program read at an index one after the other — the two layers of the filter network with
  the shifted softplus between them, the cosine cutoff, the projection, the gather, the masked sum over the
  neighbour slots, the output layer and the softplus.
-/
import proofs.«413347_j6932077216272_3_alg».proof.Proof.RefGather

noncomputable section

namespace Cert.ReferenceIdeal.Bridge

open Cert.ReferenceIdeal Cert.ReferenceIdeal.ReadP Cert.CfConv Idealize.ShloMosaic Idealize.ShloMosaic.ValueIdx

/-! The stages below are stated for one batch entry `b`, atom `a`, neighbour slot `n` and a channel, over literal
    coordinates; each reads one stage of the host program at an index built from its coordinates. -/
namespace Stage

section stages

variable (X : (⟨S32x128x128, .f32⟩ : BufTy).Contents (Elt Ideal)) (R : (⟨S32x128x64, .f32⟩ : BufTy).Contents (Elt Ideal))
  (N : (⟨S32x128x64, .i32⟩ : BufTy).Contents (Elt Ideal)) (M : (⟨S32x128x64, .f32⟩ : BufTy).Contents (Elt Ideal))
  (E : (⟨S32x128x64x64, .f32⟩ : BufTy).Contents (Elt Ideal)) (Win : (⟨S128x128, .f32⟩ : BufTy).Contents (Elt Ideal))
  (Wf1 : (⟨S64x128, .f32⟩ : BufTy).Contents (Elt Ideal)) (bf1 : (⟨S128, .f32⟩ : BufTy).Contents (Elt Ideal))
  (Wf2 : (⟨S128x128, .f32⟩ : BufTy).Contents (Elt Ideal)) (bf2 : (⟨S128, .f32⟩ : BufTy).Contents (Elt Ideal))
  (Wout : (⟨S128x128, .f32⟩ : BufTy).Contents (Elt Ideal)) (bout : (⟨S128, .f32⟩ : BufTy).Contents (Elt Ideal))
  (b : Fin 32) (a : Fin 128) (n : Fin 64)

/-! ## Batch entry `b`'s slices of the arrays, as the scalar stages take them -/

abbrev xs : Fin 128 → Fin 128 → EReal := fun k i => X (ix3 b k i)
abbrev rs : Fin 128 → Fin 64 → EReal := fun a n => R (ix3 b a n)
abbrev ns : Fin 128 → Fin 64 → BitVec 32 := fun a n => N (ix3 b a n)
abbrev ms : Fin 128 → Fin 64 → EReal := fun a n => M (ix3 b a n)
abbrev es : Fin 128 → Fin 64 → Fin 64 → EReal := fun a n q => E (ix4 b a n q)
abbrev mat (W : (⟨S128x128, .f32⟩ : BufTy).Contents (Elt Ideal)) : Fin 128 → Fin 128 → EReal := fun i f => W (ix2 i f)
abbrev mat1 : Fin 64 → Fin 128 → EReal := fun q g => Wf1 (ix2 q g)
abbrev vec (v : (⟨S128, .f32⟩ : BufTy).Contents (Elt Ideal)) : Fin 128 → EReal := fun g => v (ix1 g)

/-! ## The filter network's first layer -/

theorem lidx_v0_ix (g : Fin 128) (k : Fin 64) : lidx_main_v0 (ix4 b a n g) k = ix4 b a n k :=
  funext fun ax => Fin.ext (by match ax with | ⟨0, _⟩ => rfl | ⟨1, _⟩ => rfl | ⟨2, _⟩ => rfl | ⟨3, _⟩ => rfl)

theorem ridx_v0_ix (g : Fin 128) (k : Fin 64) : ridx_main_v0 (ix4 b a n g) k = ix2 k g :=
  funext fun ax => Fin.ext (by match ax with | ⟨0, _⟩ => rfl | ⟨1, _⟩ => rfl)

theorem idx_v1_ix (g : Fin 128) : idx_main_v1 (idx_main_v2 (ix4 b a n g)) = ix1 g :=
  funext fun ax => Fin.ext (by match ax with | ⟨0, _⟩ => rfl)

/-- The pre-activation of the first layer: the radial basis row against the weight column, plus the bias. -/
theorem pre_apply (g : Fin 128) :
    val_main_v3 (F := Ideal) E Wf1 bf1 (ix4 b a n g) = ∑ j : Fin 64, E (ix4 b a n j) * Wf1 (ix2 j g) + bf1 (ix1 g) := by
  rw [val_main_v3_apply, val_main_v0_apply, val_main_v2_apply, val_main_v1_apply, Ideal.addf_def, idx_v1_ix]
  simp only [lidx_v0_ix, ridx_v0_ix]

/-- The shifted softplus of the pre-activation is the hidden layer. -/
theorem hidden_apply (g : Fin 128) :
    val_main_v6 (F := Ideal) E Wf1 bf1 (ix4 b a n g) = hidden (es E b) (mat1 Wf1) (vec bf1) a n g := by
  rw [val_main_v6_apply, val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_v5_apply, pre_apply]
  exact ssp_host _

/-! ## The filter network's second layer -/

theorem lidx_v7_ix (f k : Fin 128) : lidx_main_v7 (ix4 b a n f) k = ix4 b a n k :=
  funext fun ax => Fin.ext (by match ax with | ⟨0, _⟩ => rfl | ⟨1, _⟩ => rfl | ⟨2, _⟩ => rfl | ⟨3, _⟩ => rfl)

theorem ridx_v7_ix (f k : Fin 128) : ridx_main_v7 (ix4 b a n f) k = ix2 k f :=
  funext fun ax => Fin.ext (by match ax with | ⟨0, _⟩ => rfl | ⟨1, _⟩ => rfl)

theorem idx_v8_ix (f : Fin 128) : idx_main_v8 (idx_main_v9 (ix4 b a n f)) = ix1 f :=
  funext fun ax => Fin.ext (by match ax with | ⟨0, _⟩ => rfl)

theorem filt_apply (f : Fin 128) :
    val_main_v10 (F := Ideal) E Wf1 bf1 Wf2 bf2 (ix4 b a n f)
      = filt (es E b) (mat1 Wf1) (vec bf1) (mat Wf2) (vec bf2) a n f := by
  rw [val_main_v10_apply, val_main_v7_apply, val_main_v9_apply, val_main_v8_apply, Ideal.addf_def, idx_v8_ix]
  simp only [lidx_v7_ix, ridx_v7_ix, hidden_apply]
  rfl

/-! ## The cosine cutoff -/

theorem cutoff_apply (i : S32x128x64.Idx) : val_main_v21 (F := Ideal) R i = cutoff (R i) := by
  rw [val_main_v21_apply, val_main_v17_apply, val_main_v16_apply, val_main_v15_apply, val_main_v13_apply,
    val_main_v12_apply, val_main_v11_apply, val_main_v14_apply, val_main_v20_apply, val_main_v19_apply,
    val_main_v18_apply]
  rfl

theorem idx_v22_ix (f : Fin 128) : idx_main_v22 (idx_main_v23 (ix4 b a n f)) = ix3 b a n :=
  funext fun ax => Fin.ext (by match ax with | ⟨0, _⟩ => rfl | ⟨1, _⟩ => rfl | ⟨2, _⟩ => rfl)

/-- The filter times the cutoff of the pair's distance. -/
theorem fc_apply (f : Fin 128) :
    val_main_v24 (F := Ideal) R E Wf1 bf1 Wf2 bf2 (ix4 b a n f)
      = filt (es E b) (mat1 Wf1) (vec bf1) (mat Wf2) (vec bf2) a n f * cutoff (R (ix3 b a n)) := by
  rw [val_main_v24_apply, val_main_v23_apply, val_main_v22_apply, idx_v22_ix, cutoff_apply, filt_apply, Ideal.mulf_def]

end stages

section stages2

variable (X : (⟨S32x128x128, .f32⟩ : BufTy).Contents (Elt Ideal)) (R : (⟨S32x128x64, .f32⟩ : BufTy).Contents (Elt Ideal))
  (N : (⟨S32x128x64, .i32⟩ : BufTy).Contents (Elt Ideal)) (M : (⟨S32x128x64, .f32⟩ : BufTy).Contents (Elt Ideal))
  (E : (⟨S32x128x64x64, .f32⟩ : BufTy).Contents (Elt Ideal)) (Win : (⟨S128x128, .f32⟩ : BufTy).Contents (Elt Ideal))
  (Wf1 : (⟨S64x128, .f32⟩ : BufTy).Contents (Elt Ideal)) (bf1 : (⟨S128, .f32⟩ : BufTy).Contents (Elt Ideal))
  (Wf2 : (⟨S128x128, .f32⟩ : BufTy).Contents (Elt Ideal)) (bf2 : (⟨S128, .f32⟩ : BufTy).Contents (Elt Ideal))
  (Wout : (⟨S128x128, .f32⟩ : BufTy).Contents (Elt Ideal)) (bout : (⟨S128, .f32⟩ : BufTy).Contents (Elt Ideal))
  (b : Fin 32) (a : Fin 128) (n : Fin 64)

/-! ## The projected embedding and its gather -/

theorem lidx_v25_ix (k f i : Fin 128) : lidx_main_v25 (ix3 b k f) i = ix3 b k i :=
  funext fun ax => Fin.ext (by match ax with | ⟨0, _⟩ => rfl | ⟨1, _⟩ => rfl | ⟨2, _⟩ => rfl)

theorem ridx_v25_ix (k f i : Fin 128) : ridx_main_v25 (ix3 b k f) i = ix2 i f :=
  funext fun ax => Fin.ext (by match ax with | ⟨0, _⟩ => rfl | ⟨1, _⟩ => rfl)

theorem proj_apply (k f : Fin 128) :
    val_main_v25 (F := Ideal) X Win (ix3 b k f) = proj (xs X b) (mat Win) k f := by
  rw [val_main_v25_apply]
  simp only [lidx_v25_ix, ridx_v25_ix]
  rfl

/-- The reshape of the pair axis back to atoms and neighbour slots reads row `64 a + n`. -/
theorem idx_v28_ix (f : Fin 128) : idx_main_v28 (ix4 b a n f) = ix3 b (rowOf a n) f := by
  have hb := b.isLt; have ha := a.isLt; have hn := n.isLt; have hf := f.isLt
  refine funext fun ax => Fin.ext ?_
  match ax with
  | ⟨0, _⟩ =>
    show (((b.val * 128 + a.val) * 64 + n.val) * 128 + f.val) / 1048576 = b.val
    omega
  | ⟨1, _⟩ =>
    show (((b.val * 128 + a.val) * 64 + n.val) * 128 + f.val) / 128 % 8192 = a.val * 64 + n.val
    omega
  | ⟨2, _⟩ =>
    show (((b.val * 128 + a.val) * 64 + n.val) * 128 + f.val) % 128 = f.val
    omega

/-- The gathered neighbour row, for indices in range. -/
theorem nbr_apply (hN : InRange N) (f : Fin 128) :
    val_main_v28 (F := Ideal) X N Win (ix4 b a n f) = proj (xs X b) (mat Win) (clampIdx (N (ix3 b a n))) f := by
  rw [val_main_v28_apply, idx_v28_ix, gather_apply X N Win hN, proj_apply]

/-! ## The message and its sum over the neighbour slots -/

theorem idx_v30_ix (f : Fin 128) : idx_main_v30 (idx_main_v31 (ix4 b a n f)) = ix3 b a n :=
  funext fun ax => Fin.ext (by match ax with | ⟨0, _⟩ => rfl | ⟨1, _⟩ => rfl | ⟨2, _⟩ => rfl)

theorem msg_apply (hN : InRange N) (f : Fin 128) :
    val_main_v32 (F := Ideal) X R N M E Win Wf1 bf1 Wf2 bf2 (ix4 b a n f)
      = msg (xs X b) (rs R b) (ns N b) (ms M b) (es E b) (mat Win) (mat1 Wf1) (vec bf1) (mat Wf2) (vec bf2) a n f := by
  rw [val_main_v32_apply, val_main_v29_apply, val_main_v31_apply, val_main_v30_apply, idx_v30_ix,
    nbr_apply X N Win b a n hN, fc_apply, Ideal.mulf_def, Ideal.mulf_def]
  rfl

theorem idx_v33_ix (f : Fin 128) (k : Fin 64) : idx_main_v33 (ix3 b a f) k = ix4 b a k f :=
  funext fun ax => Fin.ext (by match ax with | ⟨0, _⟩ => rfl | ⟨1, _⟩ => rfl | ⟨2, _⟩ => rfl | ⟨3, _⟩ => rfl)

theorem agg_apply (hN : InRange N) (f : Fin 128) :
    val_main_v33 (F := Ideal) X R N M E Win Wf1 bf1 Wf2 bf2 (ix3 b a f)
      = agg (xs X b) (rs R b) (ns N b) (ms M b) (es E b) (mat Win) (mat1 Wf1) (vec bf1) (mat Wf2) (vec bf2) a f := by
  rw [val_main_v33_apply, val_main_cst_4_apply, Ideal.ofBits_def, Ideal.ofBits_zero_f32, zero_add]
  simp only [idx_v33_ix, msg_apply X R N M E Win Wf1 bf1 Wf2 bf2 b a _ hN]
  rfl

/-! ## The output layer -/

theorem lidx_v34_ix (o k : Fin 128) : lidx_main_v34 (ix3 b a o) k = ix3 b a k :=
  funext fun ax => Fin.ext (by match ax with | ⟨0, _⟩ => rfl | ⟨1, _⟩ => rfl | ⟨2, _⟩ => rfl)

theorem ridx_v34_ix (o k : Fin 128) : ridx_main_v34 (ix3 b a o) k = ix2 k o :=
  funext fun ax => Fin.ext (by match ax with | ⟨0, _⟩ => rfl | ⟨1, _⟩ => rfl)

theorem idx_v35_ix (o : Fin 128) : idx_main_v35 (idx_main_v36 (ix3 b a o)) = ix1 o :=
  funext fun ax => Fin.ext (by match ax with | ⟨0, _⟩ => rfl)

theorem preout_apply (hN : InRange N) (o : Fin 128) :
    val_main_v37 (F := Ideal) X R N M E Win Wf1 bf1 Wf2 bf2 Wout bout (ix3 b a o)
      = ∑ f : Fin 128, agg (xs X b) (rs R b) (ns N b) (ms M b) (es E b) (mat Win) (mat1 Wf1) (vec bf1) (mat Wf2) (vec bf2) a f
          * Wout (ix2 f o) + bout (ix1 o) := by
  rw [val_main_v37_apply, val_main_v34_apply, val_main_v36_apply, val_main_v35_apply, Ideal.addf_def, idx_v35_ix]
  simp only [lidx_v34_ix, ridx_v34_ix, agg_apply X R N M E Win Wf1 bf1 Wf2 bf2 b a hN]

theorem out_apply (hN : InRange N) (o : Fin 128) :
    val_main_v40 (F := Ideal) X R N M E Win Wf1 bf1 Wf2 bf2 Wout bout (ix3 b a o)
      = outv (xs X b) (rs R b) (ns N b) (ms M b) (es E b) (mat Win) (mat1 Wf1) (vec bf1) (mat Wf2) (vec bf2)
          (mat Wout) (vec bout) a o := by
  rw [val_main_v40_apply, val_main_v38_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_v39_apply, preout_apply X R N M E Win Wf1 bf1 Wf2 bf2 Wout bout b a hN]
  exact ssp_host _

end stages2

end Stage

theorem ref_eq_G (X : (⟨S32x128x128, .f32⟩ : BufTy).Contents (Elt Ideal)) (R : (⟨S32x128x64, .f32⟩ : BufTy).Contents (Elt Ideal))
    (N : (⟨S32x128x64, .i32⟩ : BufTy).Contents (Elt Ideal)) (M : (⟨S32x128x64, .f32⟩ : BufTy).Contents (Elt Ideal))
    (E : (⟨S32x128x64x64, .f32⟩ : BufTy).Contents (Elt Ideal)) (Win : (⟨S128x128, .f32⟩ : BufTy).Contents (Elt Ideal))
    (Wf1 : (⟨S64x128, .f32⟩ : BufTy).Contents (Elt Ideal)) (bf1 : (⟨S128, .f32⟩ : BufTy).Contents (Elt Ideal))
    (Wf2 : (⟨S128x128, .f32⟩ : BufTy).Contents (Elt Ideal)) (bf2 : (⟨S128, .f32⟩ : BufTy).Contents (Elt Ideal))
    (Wout : (⟨S128x128, .f32⟩ : BufTy).Contents (Elt Ideal)) (bout : (⟨S128, .f32⟩ : BufTy).Contents (Elt Ideal))
    (hN : InRange N) :
    val_main_v40 (F := Ideal) X R N M E Win Wf1 bf1 Wf2 bf2 Wout bout = G X R N M E Win Wf1 bf1 Wf2 bf2 Wout bout := by
  funext i
  obtain ⟨b, a, o, rfl⟩ : ∃ (b : Fin 32) (a : Fin 128) (o : Fin 128), i = ix3 b a o := ⟨i 0, i 1, i 2, eq_ix3 i⟩
  rw [Stage.out_apply X R N M E Win Wf1 bf1 Wf2 bf2 Wout bout b a hN o]
  rfl

end Cert.ReferenceIdeal.Bridge

end
-- ==== Proof.Pre.lean ====
/-
  What the precondition says of the three inputs the bridge needs: every entry of the atom embedding and of
  its projection matrix is a real number (the absolute value below the infinity word), and every neighbour
  index, read signed, lies in `[0, 128)` (the two integer comparisons reduced with "and" over the whole array).
-/
import proofs.«413347_j6932077216272_3_alg».proof.Pre_finite_inputs
import proofs.«413347_j6932077216272_3_alg».proof.Proof.Gen.Pre_finite_inputs
import proofs.«413347_j6932077216272_3_alg».proof.Proof.Spec
import Idealize.ShloMosaic.Lib.ReduceAll
import Idealize.ShloMosaic.Lib.StableHlo.Predicate

noncomputable section

namespace Cert.Pre_finite_inputs.Bridge

open Cert.Pre_finite_inputs Cert.CfConv Idealize.ShloMosaic Idealize.ShloMosaic.ValueIdx

variable [Cert.Pre_finite_inputs.Facts]

/-- The infinity word is the top of the extended reals. -/
theorem infW_eq_top : Ideal.ofBits .f32 0x7F800000#32 = (⊤ : EReal) := by
  simp [Ideal.ofBits, Ideal.ieee]

/-- An extended real whose absolute value lies strictly below the infinity word is a real number: the absolute
    value of either infinity is the top, which is not below itself. -/
theorem real_of_abs_lt_inf (x : EReal)
    (hx : Ideal.cmp .olt (max x (-x)) (Ideal.ofBits .f32 0x7F800000#32) = 1#1) : ∃ t : ℝ, x = (t : EReal) := by
  rw [infW_eq_top] at hx
  induction x using EReal.rec with
  | bot => simp [Ideal.cmp] at hx
  | coe r => exact ⟨r, rfl⟩
  | top => simp [Ideal.cmp] at hx

/-- A word that tests at least the zero word and below the word 128, both signed, lies in `[0, 128)` read signed. -/
theorem range_of_words (w : BitVec 32) (h0 : IntOp.cmpi .sge w 0#32 = 1#1) (h1 : IntOp.cmpi .slt w 128#32 = 1#1) :
    0 ≤ w.toInt ∧ w.toInt < 128 := by
  have z : (0#32 : BitVec 32).toInt = 0 := by decide
  have c : (128#32 : BitVec 32).toInt = 128 := by decide
  have g := IntOp.cmpi_sge.1 h0
  have l := IntOp.cmpi_slt.1 h1
  rw [z] at g
  rw [c] at l
  exact ⟨g, l⟩

/-- The result of a reduction over every axis has one index. -/
instance : Subsingleton S_.Idx := ⟨fun a b => funext fun d => d.elim0⟩

theorem pre_facts (a0 : FVec Ideal S32x128x128 .f32) (a1 : FVec Ideal S32x128x64 .f32) (a2 : IVec S32x128x64 32)
    (a3 : FVec Ideal S32x128x64 .f32) (a4 : FVec Ideal S32x128x64x64 .f32) (a5 : FVec Ideal S128x128 .f32)
    (a6 : FVec Ideal S64x128 .f32) (a7 : FVec Ideal S128 .f32) (a8 : FVec Ideal S128x128 .f32) (a9 : FVec Ideal S128 .f32)
    (a10 : FVec Ideal S128x128 .f32) (a11 : FVec Ideal S128 .f32)
    (h : Cert.Pre_finite_inputs.fn (F := Ideal) a0 a1 a2 a3 a4 a5 a6 a7 a8 a9 a10 a11 = fun _ => 1#1) :
    InRange a2 ∧ Finite (S := S32x128x128) a0 ∧ Finite (S := S128x128) a5 := by
  -- the precondition at its one index: thirteen "all" conjuncts joined by "and"
  have e := congrFun h ValueIdx.ix0
  dsimp only [fn, fn_part1, fn_part2, fn_part3] at e
  simp only [andi, IntOp.andi_eq_one] at e
  obtain ⟨⟨⟨⟨⟨⟨⟨⟨⟨⟨⟨⟨h0, -⟩, -⟩, -⟩, h5⟩, -⟩, -⟩, -⟩, -⟩, -⟩, -⟩, hge⟩, hlt⟩ := e
  refine ⟨fun i => ?_, fun i => ?_, fun i => ?_⟩
  · exact range_of_words (a2 i) (Host.reduce_andi_all _ _ _ _ _ hge i) (Host.reduce_andi_all _ _ _ _ _ hlt i)
  · exact real_of_abs_lt_inf (a0 i) (Host.reduce_andi_all _ _ _ _ _ h0 i)
  · exact real_of_abs_lt_inf (a5 i) (Host.reduce_andi_all _ _ _ _ _ h5 i)

end Cert.Pre_finite_inputs.Bridge

end
-- ==== Proof.lean ====
/-
  A continuous-filter convolution layer (a message-passing step over atoms and their neighbour lists): the
  Pallas kernel, one grid point per batch entry, against its jnp reference, over the extended reals.

  Both programs compute, for batch entry `b`, atom `a` and output channel `o`,

      ssp (sum_f agg a f * Wout f o + bout o),
      agg a f = sum_n (proj (nb a n) f * (filt a n f * cutoff (r a n))) * mask a n,

  with `filt` a two-layer filter network over the radial basis expansion, `cutoff` the cosine cutoff, `proj`
  the atom embedding times a projection matrix, and `ssp` the shifted softplus (Proof/Spec.lean states them
  once, as `G`). The two programs differ in four ways, none of which the extended reals see, given
  finite inputs and neighbour indices in `[0, 128)`:
  · the kernel's matrix unit products and lane sum against the host's contractions and sum: the same finite sums;
  · the kernel picks the neighbour's projected row by a one-hot matrix product, taken against the projection and
    against the projection minus its own narrowing (a correction term that is `y - y = 0` for a real `y`:
    this is where finiteness of the embedding and of the projection matrix is used); the reference gathers it;
  · the kernel clamps the neighbour index where the reference wraps a negative one and fills out of range: on
    indices in range both are the identity (the precondition's two integer conjuncts: outside them the reference
    reads its fill value or another row);
  · the softplus's not-a-number guard is spelt with an ordered comparison in one and an unordered one in the
    other: neither fires.
  Proof/KFilter, KGather, KOut read the kernel body's payloads at an index, Proof/Blocks carries blocks to the
  whole array, Proof/RefGather and RefG read the reference, Proof/Pre opens the precondition.
  The frames of the two kernel programs are the generated ones; the reference's is its run with the result
  dropped; `preserves` is the one ledger entry's statement (a widening of a narrowing is the identity on the
  extended reals).
-/
import proofs.«413347_j6932077216272_3_alg».proof.Defs
import proofs.«413347_j6932077216272_3_alg».proof.Proof.Gen.Kernel
import proofs.«413347_j6932077216272_3_alg».proof.Proof.Gen.Kernel.Skeleton
import proofs.«413347_j6932077216272_3_alg».proof.Proof.Gen.Kernel.Launch
import proofs.«413347_j6932077216272_3_alg».proof.Proof.Gen.Kernel.Points
import proofs.«413347_j6932077216272_3_alg».proof.Proof.Gen.Kernel.Frame
import proofs.«413347_j6932077216272_3_alg».proof.Proof.Gen.KernelIdeal
import proofs.«413347_j6932077216272_3_alg».proof.Proof.Gen.KernelIdeal.Skeleton
import proofs.«413347_j6932077216272_3_alg».proof.Proof.Gen.KernelIdeal.Launch
import proofs.«413347_j6932077216272_3_alg».proof.Proof.Gen.KernelIdeal.Points
import proofs.«413347_j6932077216272_3_alg».proof.Proof.Gen.KernelIdeal.Frame
import proofs.«413347_j6932077216272_3_alg».proof.Proof.Gen.ReferenceIdeal
import proofs.«413347_j6932077216272_3_alg».proof.Proof.Gen.Pre_finite_inputs
import proofs.«413347_j6932077216272_3_alg».proof.Proof.Gen.KernelIdeal.Value
import proofs.«413347_j6932077216272_3_alg».proof.Proof.RefRun
import proofs.«413347_j6932077216272_3_alg».proof.Proof.RefRead
import proofs.«413347_j6932077216272_3_alg».proof.Proof.Blocks
import proofs.«413347_j6932077216272_3_alg».proof.Proof.RefG
import proofs.«413347_j6932077216272_3_alg».proof.Proof.Pre
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The ledger's one entry: narrowing the projection to bf16 and widening it back is the identity on the
    extended reals. -/
theorem preserves : Cert.preserves_Kernel_KernelIdeal := IdealRules.truncf_extf.statement _ .f32 .bf16

/-- The precondition on core `c`, opened: indices in range, the embedding and its projection matrix real. -/
theorem good (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Bridge.Good m c :=
  Cert.Pre_finite_inputs.Bridge.pre_facts _ _ _ _ _ _ _ _ _ _ _ _ (hpre c)

/-- Both runs end with the result at `G` of the (agreeing) arguments. -/
theorem algebraic : Cert.algebraic_KernelIdeal_ReferenceIdeal := by
  intro m ρ m' ρ' hpre hagree
  refine ⟨_, Cert.KernelIdeal.Bridge.run m ρ (good m hpre), ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11⟩ := hagree c
  rw [Cert.ReferenceIdeal.ReadP.val_main_v40_eq, e0, e1, e2, e3, e4, e5, e6, e7, e8, e9, e10, e11]
  exact Cert.ReferenceIdeal.Bridge.ref_eq_G _ _ _ _ _ _ _ _ _ _ _ _ (good m hpre c).1

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
